-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1600000x64 .f32) (main_arg2 : FVec F S64x64 .f32) (main_arg3 : FVec F S64 .f32) (main_arg4 : IVec S1600000 32) (main_arg5 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000x64 : Shape := ⟨2, ![1600000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S800000x128 : Shape := ⟨2, ![800000, 128]⟩
abbrev S4096x128 : Shape := ⟨2, ![4096, 128]⟩
abbrev S100000 : Shape := ⟨1, ![100000]⟩
abbrev S1x64 : Shape := ⟨2, ![1, 64]⟩
abbrev S100000x1 : Shape := ⟨2, ![100000, 1]⟩
abbrev S2000x64 : Shape := ⟨2, ![2000, 64]⟩
abbrev S2000x1 : Shape := ⟨2, ![2000, 1]⟩

abbrev nBuf : Space → Nat
  | .hbm => 62
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S64x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S800000x128, .f32⟩
  | .hbm, ⟨42, _⟩ => ⟨S800000x128, .f32⟩
  | .hbm, ⟨43, _⟩ => ⟨S800000x128, .f32⟩
  | .hbm, ⟨44, _⟩ => ⟨S1600000x64, .f32⟩
  | .hbm, ⟨45, _⟩ => ⟨S_, .f32⟩
  | .hbm, ⟨46, _⟩ => ⟨S1600000, .f32⟩
  | .hbm, ⟨47, _⟩ => ⟨S_, .f32⟩
  | .hbm, ⟨48, _⟩ => ⟨S100000, .f32⟩
  | .hbm, ⟨49, _⟩ => ⟨S1600000x1, .i32⟩
  | .hbm, ⟨50, _⟩ => ⟨S100000, .f32⟩
  | .hbm, ⟨51, _⟩ => ⟨S_, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S64x64, .f32⟩
  | .hbm, ⟨59, _⟩ => ⟨S1x64, .f32⟩
  | .hbm, ⟨60, _⟩ => ⟨S100000x1, .f32⟩
  | .hbm, ⟨61, _⟩ => ⟨S100000x64, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S2000x64, .f32⟩
  | .local _ .vmem, ⟨13, _⟩ => ⟨S2000x64, .f32⟩
  | .local _ .vmem, ⟨14, _⟩ => ⟨S64x64, .f32⟩
  | .local _ .vmem, ⟨15, _⟩ => ⟨S1x64, .f32⟩
  | .local _ .vmem, ⟨16, _⟩ => ⟨S2000x1, .f32⟩
  | .local _ .vmem, ⟨17, _⟩ => ⟨S2000x1, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![196], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000x64_S800000x128 : S1600000x64.ShapeCasts S800000x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S800000x128_S1600000x64 : S800000x128.ShapeCasts S1600000x64
  bcast_S_S100000x64 : S_.BroadcastsInDim S100000x64 (![] : Fin 0 → Fin S100000x64.rank)
  bcast_S_S100000 : S_.BroadcastsInDim S100000 (![] : Fin 0 → Fin S100000.rank)
  transposes_S64x64_S64x64_1_0 : S64x64.Transposes [1, 0] S64x64
  shapeCasts_S64_S1x64 : S64.ShapeCasts S1x64
  shapeCasts_S100000_S100000x1 : S100000.ShapeCasts S100000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x128.size a < S800000x128.size a
  hwx0_0 : ∀ i : grid0.Coords, EltTy.bits .f32 = 32 ∨ (Rect.unit (s := S800000x128) (fun a => cc0_transform_0 i a * S4096x128.size a) (fun a => (Pipeline.Clip.of (cc0_transform_0 i a) (S4096x128.size a) (S800000x128.size a)).extent (S4096x128.size a)) fun a => Pipeline.Clip.inb (Pipeline.Clip.ok_of (hstart0_0 i a))).WholeWords (EltTy.packing .f32)
  hwxs0_0 : ∀ i : grid0.Coords, EltTy.bits .f32 = 32 ∨ (Rect.unit (s := S4096x128) (fun _ => 0) (fun a => (Pipeline.Clip.of (cc0_transform_0 i a) (S4096x128.size a) (S800000x128.size a)).extent (S4096x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x128.size a < S800000x128.size a
  hwx0_1 : ∀ i : grid0.Coords, EltTy.bits .f32 = 32 ∨ (Rect.unit (s := S800000x128) (fun a => cc0_transform_1 i a * S4096x128.size a) (fun a => (Pipeline.Clip.of (cc0_transform_1 i a) (S4096x128.size a) (S800000x128.size a)).extent (S4096x128.size a)) fun a => Pipeline.Clip.inb (Pipeline.Clip.ok_of (hstart0_1 i a))).WholeWords (EltTy.packing .f32)
  hwxs0_1 : ∀ i : grid0.Coords, EltTy.bits .f32 = 32 ∨ (Rect.unit (s := S4096x128) (fun _ => 0) (fun a => (Pipeline.Clip.of (cc0_transform_1 i a) (S4096x128.size a) (S800000x128.size a)).extent (S4096x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x128.size a < S800000x128.size a
  hwx0_2 : ∀ i : grid0.Coords, EltTy.bits .f32 = 32 ∨ (Rect.unit (s := S800000x128) (fun a => cc0_transform_2 i a * S4096x128.size a) (fun a => (Pipeline.Clip.of (cc0_transform_2 i a) (S4096x128.size a) (S800000x128.size a)).extent (S4096x128.size a)) fun a => Pipeline.Clip.inb (Pipeline.Clip.ok_of (hstart0_2 i a))).WholeWords (EltTy.packing .f32)
  hwxs0_2 : ∀ i : grid0.Coords, EltTy.bits .f32 = 32 ∨ (Rect.unit (s := S4096x128) (fun _ => 0) (fun a => (Pipeline.Clip.of (cc0_transform_2 i a) (S4096x128.size a) (S800000x128.size a)).extent (S4096x128.size a)) fun a => (Nat.zero_add _).trans_le (Pipeline.Clip.extent_le (Pipeline.Clip.ok_of (hstart0_2 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S4096x128.size a < S800000x128.size a
  hwx1_0 : ∀ i : grid1.Coords, EltTy.bits .f32 = 32 ∨ (Rect.unit (s := S800000x128) (fun a => cc1_transform_0 i a * S4096x128.size a) (fun a => (Pipeline.Clip.of (cc1_transform_0 i a) (S4096x128.size a) (S800000x128.size a)).extent (S4096x128.size a)) fun a => Pipeline.Clip.inb (Pipeline.Clip.ok_of (hstart1_0 i a))).WholeWords (EltTy.packing .f32)
  hwxs1_0 : ∀ i : grid1.Coords, EltTy.bits .f32 = 32 ∨ (Rect.unit (s := S4096x128) (fun _ => 0) (fun a => (Pipeline.Clip.of (cc1_transform_0 i a) (S4096x128.size a) (S800000x128.size a)).extent (S4096x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S4096x128.size a < S800000x128.size a
  hwx1_1 : ∀ i : grid1.Coords, EltTy.bits .f32 = 32 ∨ (Rect.unit (s := S800000x128) (fun a => cc1_transform_1 i a * S4096x128.size a) (fun a => (Pipeline.Clip.of (cc1_transform_1 i a) (S4096x128.size a) (S800000x128.size a)).extent (S4096x128.size a)) fun a => Pipeline.Clip.inb (Pipeline.Clip.ok_of (hstart1_1 i a))).WholeWords (EltTy.packing .f32)
  hwxs1_1 : ∀ i : grid1.Coords, EltTy.bits .f32 = 32 ∨ (Rect.unit (s := S4096x128) (fun _ => 0) (fun a => (Pipeline.Clip.of (cc1_transform_1 i a) (S4096x128.size a) (S800000x128.size a)).extent (S4096x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S4096x128.size a < S800000x128.size a
  hwx1_2 : ∀ i : grid1.Coords, EltTy.bits .f32 = 32 ∨ (Rect.unit (s := S800000x128) (fun a => cc1_transform_2 i a * S4096x128.size a) (fun a => (Pipeline.Clip.of (cc1_transform_2 i a) (S4096x128.size a) (S800000x128.size a)).extent (S4096x128.size a)) fun a => Pipeline.Clip.inb (Pipeline.Clip.ok_of (hstart1_2 i a))).WholeWords (EltTy.packing .f32)
  hwxs1_2 : ∀ i : grid1.Coords, EltTy.bits .f32 = 32 ∨ (Rect.unit (s := S4096x128) (fun _ => 0) (fun a => (Pipeline.Clip.of (cc1_transform_2 i a) (S4096x128.size a) (S800000x128.size a)).extent (S4096x128.size a)) fun a => (Nat.zero_add _).trans_le (Pipeline.Clip.extent_le (Pipeline.Clip.ok_of (hstart1_2 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .f32 = 32 ∨ (Rect.block (s := S100000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpecClip (Memref.whole main_v7) S4096x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v8) S4096x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v9) S4096x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v28) S4096x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v29) S4096x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v30) S4096x128.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v13) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg0) S2000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v42) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S1x64 : Shape := ⟨2, ![1, 64]⟩
abbrev S100000x1 : Shape := ⟨2, ![100000, 1]⟩

abbrev nBuf : Space → Nat
  | .hbm => 61
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S64x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S1600000, .f32⟩
  | .hbm, ⟨41, _⟩ => ⟨S_, .f32⟩
  | .hbm, ⟨42, _⟩ => ⟨S100000, .f32⟩
  | .hbm, ⟨43, _⟩ => ⟨S1600000x1, .i32⟩
  | .hbm, ⟨44, _⟩ => ⟨S100000, .f32⟩
  | .hbm, ⟨45, _⟩ => ⟨S_, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S64x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_call0_v0 : Ref sig .tc := ⟨.hbm, 46, rfl⟩
abbrev main_call0_v1 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Bits.AddRegion0.lean ====
/-
  Region 0 of the kernel program: the lane-dense sum of two f32[800000, 128] arrays in blocks of 4096 rows over
  a grid of 196 points. 800000 = 195 · 4096 + 1280, so the last block overhangs both inputs and the output by 2816 rows:
  its fetches and its write-back are cut at the arrays' end. All three windows are loose: the body obligation speaks of
  the rows inside the array only. After the run the output array holds the sum of the two input arrays, row for row.
-/
import proofs.«158282_j16862041604212_1_alg».proof.Proof.Gen.Kernel.Launch
import proofs.«158282_j16862041604212_1_alg».proof.Proof.Gen.Kernel.Skeleton
import proofs.«158282_j16862041604212_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- The first summand's block at point t: the rows of the array that the (possibly cut) block covers. -/
def ablk0 (c : Dev nD) (t : Fin cfg0.N) : (win0_0.xblock (grid0.coords t)).Idx → Elt F .f32 :=
  (win0_0.blk t).view.read (Elt F) (V c main_v7)
/-- The second summand's block at point t (the three windows share one index map and one cut). -/
def bblk0 (c : Dev nD) (t : Fin cfg0.N) : (win0_0.xblock (grid0.coords t)).Idx → Elt F .f32 :=
  (win0_1.blk t).view.read (Elt F) (V c main_v8)

/-- What the three staging buffers hold after the body at point t on the rows inside the array: the two blocks and their
    sum; past the array's end nothing is stated, and the filler is the zero word. -/
def dat0 (c : Dev nD) : Dat τ (Elt F) Unit ℕ (UR sig nD τ) ℕ cfg0 c where
  A w := V c (Pipeline.arrRef spec0 w)
  after w t := match w with
    | ⟨0, _⟩ => win0_0.fill (grid0.coords t) (fun _ => Scalar.ofBits .f32 0#32) (ablk0 V c t)
    | ⟨1, _⟩ => win0_0.fill (grid0.coords t) (fun _ => Scalar.ofBits .f32 0#32) (bblk0 V c t)
    | ⟨2, _⟩ => win0_0.fill (grid0.coords t) (fun _ => Scalar.ofBits .f32 0#32) (fun j => FloatOps.addf (ablk0 V c t j) (bblk0 V c t j))
  Φ _ := Pipeline.ΦA spec0 c
  q _ := fullShare
  owed _ := 0

theorem A_eq0 (c : Dev nD) (w : Fin cfg0.W) : (dat0 V c).A w = V c (Pipeline.arrRef spec0 w) := by
  dsimp only [dat0]

/-- The two zero offsets, spelt as the constant map. -/
theorem zero_offsets0 : (![0, 0] : Fin 2 → Nat) = fun _ => 0 := funext fun a => by fin_cases a <;> rfl

set_option maxHeartbeats 1000000 in
/-- The kernel body on any three whole staging buffers, the summands' holding X0 and X1 and the sum's anything: the
    two loads read X0 and X1, the store covers the sum's buffer, which ends holding the lane-wise sum; the summands'
    buffers are unchanged. -/
theorem sound_add0 (c : Dev nD) (E : Set ℕ) (i : grid0.Coords)
    (a0 : Memref sig .tc .vmem S4096x128 .f32) (h0 : a0.IsWhole) (a1 : Memref sig .tc .vmem S4096x128 .f32) (h1 : a1.IsWhole)
    (a2 : Memref sig .tc .vmem S4096x128 .f32) (h2 : a2.IsWhole)
    (X0 X1 : Vec F S4096x128 .f32) (K : PUnit → sProp 𝕄) :
    iprop(owns (c : Thread nD τ) a0 fullShare X0 ∗ owns (c : Thread nD τ) a1 fullShare X1 ∗ (∃ d, owns (c : Thread nD τ) a2 fullShare d)
        ∗ (iprop(owns (c : Thread nD τ) a0 fullShare X0 ∗ owns (c : Thread nD τ) a1 fullShare X1 ∗ owns (c : Thread nD τ) a2 fullShare (addf X0 X1)) -∗ K ⟨⟩))
      ⊢ wp frame (wpE (defs₀ (F := F)) Variants.none c none) E (cc0__add_kernel i a0 h0 a1 h1 a2 h2) K := by
  simp only [cc0__add_kernel_eq_skeleton]; unfold cc0__add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zero_offsets0 inb_S4096x128_S4096x128_0_0 y⟩),
    View.canon_unit_zero zero_offsets0, View.readAt_eq_ld, View.readAt_eq_ld, View.ld_unit_zero zero_offsets0, View.ld_unit_zero zero_offsets0]
  unfold k0_pay1
  rw [shapeCast_self, shapeCast_self]

/-- What the body finds: each summand's buffer just fetched holds the block on the rows inside the array and the
    earlier contents past its end; -/
theorem before0_0 (c : Dev nD) (t : Fin cfg0.N) (d) :
    (dat0 V c).before (0 : Fin 3) t d = win0_0.fill (grid0.coords t) d (ablk0 V c t) := by
  unfold Dat.before; rw [if_pos (fetch0_0 t)]; rfl
theorem before0_1 (c : Dev nD) (t : Fin cfg0.N) (d) :
    (dat0 V c).before (1 : Fin 3) t d = win0_0.fill (grid0.coords t) d (bblk0 V c t) := by
  unfold Dat.before; rw [if_pos (fetch0_1 t)]; rfl
/-- the sum's buffer, written back at every point and never fetched, holds anything. -/
theorem before0_2 (c : Dev nD) (t : Fin cfg0.N) (d) : (dat0 V c).before (2 : Fin 3) t d = d := by
  refine (dat0 V c).before_out_reset (2 : Fin 3) rfl t ?_ d
  by_cases h : t.val = 0
  · exact .inl h
  · exact .inr ⟨h, flush0_2 _⟩

/-- What the body leaves, window by window. -/
theorem after0_0 (c : Dev nD) (t : Fin cfg0.N) : (dat0 V c).after (0 : Fin 3) t
    = win0_0.fill (grid0.coords t) (fun _ => Scalar.ofBits .f32 0#32) (ablk0 V c t) := by dsimp only [dat0]
theorem after0_1 (c : Dev nD) (t : Fin cfg0.N) : (dat0 V c).after (1 : Fin 3) t
    = win0_0.fill (grid0.coords t) (fun _ => Scalar.ofBits .f32 0#32) (bblk0 V c t) := by dsimp only [dat0]
theorem after0_2 (c : Dev nD) (t : Fin cfg0.N) : (dat0 V c).after (2 : Fin 3) t
    = win0_0.fill (grid0.coords t) (fun _ => Scalar.ofBits .f32 0#32) (fun j => FloatOps.addf (ablk0 V c t j) (bblk0 V c t j)) := by
  dsimp only [dat0]

/-- The body at every point: two whole loads, the sum, a whole store. -/
theorem body_obligation0 (c : Dev nD) : BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0, before0_1 V c t d1, before0_2 V c t d2]
  iapply (sound_add0 (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_0.fill (grid0.coords t) d0 (ablk0 V c t)) (win0_0.fill (grid0.coords t) d1 (bblk0 V c t)) _)
  isplitl [H0]; · iexact H0
  isplitl [H1]; · iexact H1
  isplitl [H2]; · iexists d2; iexact H2
  iintro ⟨H0, H1, H2⟩
  isplitl [HΦ]; · iexact HΦ
  isplitl [Ho]; · iexact Ho
  -- on the rows inside the array each buffer holds what the proof data names; past the array's end the two
  -- summands' buffers hold what they held and the sum's the sum of those
  have ha : win0_0.cut (grid0.coords t) ((dat0 V c).after 0 t) = ablk0 V c t := by
    rw [after0_0]; exact win0_0.cut_fill _ _ _
  have hb : win0_0.cut (grid0.coords t) ((dat0 V c).after 1 t) = bblk0 V c t := by
    rw [after0_1]; exact win0_0.cut_fill _ _ _
  have hs : win0_0.cut (grid0.coords t) ((dat0 V c).after 2 t)
      = fun j => FloatOps.addf (ablk0 V c t j) (bblk0 V c t j) := by
    rw [after0_2]; exact win0_0.cut_fill _ _ _
  have hsum : addf (win0_0.fill (grid0.coords t) d0 (ablk0 V c t)) (win0_0.fill (grid0.coords t) d1 (bblk0 V c t))
      = win0_0.fill (grid0.coords t) (addf d0 d1) (fun j => FloatOps.addf (ablk0 V c t j) (bblk0 V c t j)) := by
    funext j; unfold addf Window.fill; split <;> rfl
  isplitl [H0]
  · iexists d0
    change _ ⊢ owns (c : Thread nD τ) (stage0_0 (cfg0.slots t 0)) fullShare
      (win0_0.fill (grid0.coords t) d0 (win0_0.cut (grid0.coords t) ((dat0 V c).after 0 t)))
    rw [ha]
  isplitl [H1]
  · iexists d1
    change _ ⊢ owns (c : Thread nD τ) (stage0_1 (cfg0.slots t 1)) fullShare
      (win0_0.fill (grid0.coords t) d1 (win0_0.cut (grid0.coords t) ((dat0 V c).after 1 t)))
    rw [hb]
  · iexists addf d0 d1
    change _ ⊢ owns (c : Thread nD τ) (stage0_2 (cfg0.slots t 2)) fullShare
      (win0_0.fill (grid0.coords t) (addf d0 d1) (win0_0.cut (grid0.coords t) ((dat0 V c).after 2 t)))
    rw [hs, ← hsum]

/-- The two inputs are never written. -/
theorem final0_in0 (c : Dev nD) : (dat0 V c).arrAt 0 cfg0.N = V c main_v7 :=
  ((dat0 V c).arrAt_in (0 : Fin 3) rfl _).trans (A_eq0 V c 0)
theorem final0_in1 (c : Dev nD) : (dat0 V c).arrAt 1 cfg0.N = V c main_v8 :=
  ((dat0 V c).arrAt_in (1 : Fin 3) rfl _).trans (A_eq0 V c 1)

/-- The sum of the two input arrays, row for row. -/
abbrev sum0 (c : Dev nD) : Buf (Elt F) ((c : Thread nD τ).loc main_v9) :=
  addf (s := S800000x128) (V c main_v7) (V c main_v8)

/-- What point t writes back is block t of the sum: the three windows share one index map and one cut, and a block
    of a lane-wise sum is the sum of the blocks. -/
theorem flushed0_2 (c : Dev nD) (t : Fin cfg0.N) :
    (dat0 V c).flushed (2 : Fin 3) t = ((cfg0.win 2).blk t).view.read (Elt F) (sum0 V c) := by
  show win0_0.cut (grid0.coords t) ((dat0 V c).after (2 : Fin 3) t) = _
  rw [after0_2]
  change win0_0.cut (grid0.coords t) (win0_0.fill (grid0.coords t) (fun _ => Scalar.ofBits .f32 0#32)
    (fun j => FloatOps.addf (ablk0 V c t j) (bblk0 V c t j))) = fun j => FloatOps.addf (ablk0 V c t j) (bblk0 V c t j)
  exact win0_0.cut_fill _ _ _

/-- The schedule of the sum's window over the 196 points, decided once: point t's block starts at row 4096 t, spans the
    128 lanes, and holds 4096 rows of the array, the last one 1280. -/
theorem blk_facts0 : ∀ t : Fin cfg0.N, win0_2.index t (0 : Fin 2) = t.val ∧ win0_2.index t (1 : Fin 2) = 0
    ∧ win0_2.xsize (grid0.coords t) (1 : Fin 2) = 128
    ∧ (t.val < 195 → win0_2.xsize (grid0.coords t) (0 : Fin 2) = 4096)
    ∧ (t.val = 195 → win0_2.xsize (grid0.coords t) (0 : Fin 2) = 1280) :=
  (by decide +kernel : ∀ t : Fin grid0.N, _)

/-- An index of the array lies in point t's block iff its row is among the block's rows inside the array. -/
theorem mem_blk0 (t : Fin cfg0.N) (i : S800000x128.Idx) :
    i ∈ ((cfg0.win 2).blk t).view.set ↔ win0_2.index t 0 * 4096 ≤ (i 0 : Nat)
      ∧ (i 0 : Nat) < win0_2.index t 0 * 4096 + win0_2.xsize (grid0.coords t) 0 := by
  show i ∈ ((View.whole main_v9).slice (win0_2.rect t)).set ↔ _
  rw [View.set_slice_whole, Rect.mem_set_unit]
  have h1 : (i 1 : Nat) < 128 := (i 1).isLt
  obtain ⟨-, e1, e2, -, -⟩ := blk_facts0 t
  refine ⟨fun h => h 0, fun h a => ?_⟩
  match a with
  | ⟨0, _⟩ => exact h
  | ⟨1, _⟩ =>
    change win0_2.index t 1 * 128 ≤ (i 1 : Nat) ∧ (i 1 : Nat) < win0_2.index t 1 * 128 + win0_2.xsize (grid0.coords t) 1
    rw [e1, e2]; omega

/-- The output array after the 196 write-backs is the sum of the two input arrays. -/
theorem final0 (c : Dev nD) : (dat0 V c).arrAt 2 cfg0.N = addf (s := S800000x128) (V c main_v7) (V c main_v8) := by
  refine (dat0 V c).arrAt_eq_of_cover (2 : Fin 3) (sum0 V c) (fun t _ => flushed0_2 V c t) fun i => ?_
  -- row r lies in the block of point r / 4096
  have hr : (i 0 : Nat) < 800000 := (i 0).isLt
  have hq : (i 0 : Nat) / 4096 < cfg0.N := by rw [show cfg0.N = 196 from N_0]; omega
  refine ⟨⟨(i 0 : Nat) / 4096, hq⟩, flush0_2 _, ?_⟩
  rw [mem_blk0]
  obtain ⟨e0, -, -, e3, e4⟩ := blk_facts0 ⟨(i 0 : Nat) / 4096, hq⟩
  rw [e0]
  by_cases h : (i 0 : Nat) / 4096 < 195
  · rw [e3 h]; show (i 0 : Nat) / 4096 * 4096 ≤ (i 0 : Nat) ∧ (i 0 : Nat) < (i 0 : Nat) / 4096 * 4096 + 4096; omega
  · have h' : (i 0 : Nat) / 4096 = 195 := by omega
    rw [e4 h']; show (i 0 : Nat) / 4096 * 4096 ≤ (i 0 : Nat) ∧ (i 0 : Nat) < (i 0 : Nat) / 4096 * 4096 + 1280; omega

end Cert.Kernel.Hand

end
-- ==== Proof.Bits.AddRegion1.lean ====
/-
  Region 1 of the kernel program: the lane-dense sum of two f32[800000, 128] arrays in blocks of 4096 rows over
  a grid of 196 points. 800000 = 195 · 4096 + 1280, so the last block overhangs both inputs and the output by 2816 rows:
  its fetches and its write-back are cut at the arrays' end. All three windows are loose: the body obligation speaks of
  the rows inside the array only. After the run the output array holds the sum of the two input arrays, row for row.
-/
import proofs.«158282_j16862041604212_1_alg».proof.Proof.Gen.Kernel.Launch
import proofs.«158282_j16862041604212_1_alg».proof.Proof.Gen.Kernel.Skeleton
import proofs.«158282_j16862041604212_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- The first summand's block at point t: the rows of the array that the (possibly cut) block covers. -/
def ablk1 (c : Dev nD) (t : Fin cfg1.N) : (win1_0.xblock (grid1.coords t)).Idx → Elt F .f32 :=
  (win1_0.blk t).view.read (Elt F) (V c main_v28)
/-- The second summand's block at point t (the three windows share one index map and one cut). -/
def bblk1 (c : Dev nD) (t : Fin cfg1.N) : (win1_0.xblock (grid1.coords t)).Idx → Elt F .f32 :=
  (win1_1.blk t).view.read (Elt F) (V c main_v29)

/-- What the three staging buffers hold after the body at point t on the rows inside the array: the two blocks and their
    sum; past the array's end nothing is stated, and the filler is the zero word. -/
def dat1 (c : Dev nD) : Dat τ (Elt F) Unit ℕ (UR sig nD τ) ℕ cfg1 c where
  A w := V c (Pipeline.arrRef spec1 w)
  after w t := match w with
    | ⟨0, _⟩ => win1_0.fill (grid1.coords t) (fun _ => Scalar.ofBits .f32 0#32) (ablk1 V c t)
    | ⟨1, _⟩ => win1_0.fill (grid1.coords t) (fun _ => Scalar.ofBits .f32 0#32) (bblk1 V c t)
    | ⟨2, _⟩ => win1_0.fill (grid1.coords t) (fun _ => Scalar.ofBits .f32 0#32) (fun j => FloatOps.addf (ablk1 V c t j) (bblk1 V c t j))
  Φ _ := Pipeline.ΦA spec1 c
  q _ := fullShare
  owed _ := 0

theorem A_eq1 (c : Dev nD) (w : Fin cfg1.W) : (dat1 V c).A w = V c (Pipeline.arrRef spec1 w) := by
  dsimp only [dat1]

/-- The two zero offsets, spelt as the constant map. -/
theorem zero_offsets1 : (![0, 0] : Fin 2 → Nat) = fun _ => 0 := funext fun a => by fin_cases a <;> rfl

set_option maxHeartbeats 1000000 in
/-- The kernel body on any three whole staging buffers, the summands' holding X0 and X1 and the sum's anything: the
    two loads read X0 and X1, the store covers the sum's buffer, which ends holding the lane-wise sum; the summands'
    buffers are unchanged. -/
theorem sound_add1 (c : Dev nD) (E : Set ℕ) (i : grid1.Coords)
    (a0 : Memref sig .tc .vmem S4096x128 .f32) (h0 : a0.IsWhole) (a1 : Memref sig .tc .vmem S4096x128 .f32) (h1 : a1.IsWhole)
    (a2 : Memref sig .tc .vmem S4096x128 .f32) (h2 : a2.IsWhole)
    (X0 X1 : Vec F S4096x128 .f32) (K : PUnit → sProp 𝕄) :
    iprop(owns (c : Thread nD τ) a0 fullShare X0 ∗ owns (c : Thread nD τ) a1 fullShare X1 ∗ (∃ d, owns (c : Thread nD τ) a2 fullShare d)
        ∗ (iprop(owns (c : Thread nD τ) a0 fullShare X0 ∗ owns (c : Thread nD τ) a1 fullShare X1 ∗ owns (c : Thread nD τ) a2 fullShare (addf X0 X1)) -∗ K ⟨⟩))
      ⊢ wp frame (wpE (defs₀ (F := F)) Variants.none c none) E (cc1__add_kernel i a0 h0 a1 h1 a2 h2) K := by
  simp only [cc1__add_kernel_eq_skeleton]; unfold cc1__add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zero_offsets1 inb_S4096x128_S4096x128_0_0 y⟩),
    View.canon_unit_zero zero_offsets1, View.readAt_eq_ld, View.readAt_eq_ld, View.ld_unit_zero zero_offsets1, View.ld_unit_zero zero_offsets1]
  unfold k1_pay1
  rw [shapeCast_self, shapeCast_self]

/-- What the body finds: each summand's buffer just fetched holds the block on the rows inside the array and the
    earlier contents past its end; -/
theorem before1_0 (c : Dev nD) (t : Fin cfg1.N) (d) :
    (dat1 V c).before (0 : Fin 3) t d = win1_0.fill (grid1.coords t) d (ablk1 V c t) := by
  unfold Dat.before; rw [if_pos (fetch1_0 t)]; rfl
theorem before1_1 (c : Dev nD) (t : Fin cfg1.N) (d) :
    (dat1 V c).before (1 : Fin 3) t d = win1_0.fill (grid1.coords t) d (bblk1 V c t) := by
  unfold Dat.before; rw [if_pos (fetch1_1 t)]; rfl
/-- the sum's buffer, written back at every point and never fetched, holds anything. -/
theorem before1_2 (c : Dev nD) (t : Fin cfg1.N) (d) : (dat1 V c).before (2 : Fin 3) t d = d := by
  refine (dat1 V c).before_out_reset (2 : Fin 3) rfl t ?_ d
  by_cases h : t.val = 0
  · exact .inl h
  · exact .inr ⟨h, flush1_2 _⟩

/-- What the body leaves, window by window. -/
theorem after1_0 (c : Dev nD) (t : Fin cfg1.N) : (dat1 V c).after (0 : Fin 3) t
    = win1_0.fill (grid1.coords t) (fun _ => Scalar.ofBits .f32 0#32) (ablk1 V c t) := by dsimp only [dat1]
theorem after1_1 (c : Dev nD) (t : Fin cfg1.N) : (dat1 V c).after (1 : Fin 3) t
    = win1_0.fill (grid1.coords t) (fun _ => Scalar.ofBits .f32 0#32) (bblk1 V c t) := by dsimp only [dat1]
theorem after1_2 (c : Dev nD) (t : Fin cfg1.N) : (dat1 V c).after (2 : Fin 3) t
    = win1_0.fill (grid1.coords t) (fun _ => Scalar.ofBits .f32 0#32) (fun j => FloatOps.addf (ablk1 V c t j) (bblk1 V c t j)) := by
  dsimp only [dat1]

/-- The body at every point: two whole loads, the sum, a whole store. -/
theorem body_obligation1 (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1, before1_2 V c t d2]
  iapply (sound_add1 (F := F) c Set.univ (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_0.fill (grid1.coords t) d0 (ablk1 V c t)) (win1_0.fill (grid1.coords t) d1 (bblk1 V c t)) _)
  isplitl [H0]; · iexact H0
  isplitl [H1]; · iexact H1
  isplitl [H2]; · iexists d2; iexact H2
  iintro ⟨H0, H1, H2⟩
  isplitl [HΦ]; · iexact HΦ
  isplitl [Ho]; · iexact Ho
  -- on the rows inside the array each buffer holds what the proof data names; past the array's end the two
  -- summands' buffers hold what they held and the sum's the sum of those
  have ha : win1_0.cut (grid1.coords t) ((dat1 V c).after 0 t) = ablk1 V c t := by
    rw [after1_0]; exact win1_0.cut_fill _ _ _
  have hb : win1_0.cut (grid1.coords t) ((dat1 V c).after 1 t) = bblk1 V c t := by
    rw [after1_1]; exact win1_0.cut_fill _ _ _
  have hs : win1_0.cut (grid1.coords t) ((dat1 V c).after 2 t)
      = fun j => FloatOps.addf (ablk1 V c t j) (bblk1 V c t j) := by
    rw [after1_2]; exact win1_0.cut_fill _ _ _
  have hsum : addf (win1_0.fill (grid1.coords t) d0 (ablk1 V c t)) (win1_0.fill (grid1.coords t) d1 (bblk1 V c t))
      = win1_0.fill (grid1.coords t) (addf d0 d1) (fun j => FloatOps.addf (ablk1 V c t j) (bblk1 V c t j)) := by
    funext j; unfold addf Window.fill; split <;> rfl
  isplitl [H0]
  · iexists d0
    change _ ⊢ owns (c : Thread nD τ) (stage1_0 (cfg1.slots t 0)) fullShare
      (win1_0.fill (grid1.coords t) d0 (win1_0.cut (grid1.coords t) ((dat1 V c).after 0 t)))
    rw [ha]
  isplitl [H1]
  · iexists d1
    change _ ⊢ owns (c : Thread nD τ) (stage1_1 (cfg1.slots t 1)) fullShare
      (win1_0.fill (grid1.coords t) d1 (win1_0.cut (grid1.coords t) ((dat1 V c).after 1 t)))
    rw [hb]
  · iexists addf d0 d1
    change _ ⊢ owns (c : Thread nD τ) (stage1_2 (cfg1.slots t 2)) fullShare
      (win1_0.fill (grid1.coords t) (addf d0 d1) (win1_0.cut (grid1.coords t) ((dat1 V c).after 2 t)))
    rw [hs, ← hsum]

/-- The two inputs are never written. -/
theorem final1_in0 (c : Dev nD) : (dat1 V c).arrAt 0 cfg1.N = V c main_v28 :=
  ((dat1 V c).arrAt_in (0 : Fin 3) rfl _).trans (A_eq1 V c 0)
theorem final1_in1 (c : Dev nD) : (dat1 V c).arrAt 1 cfg1.N = V c main_v29 :=
  ((dat1 V c).arrAt_in (1 : Fin 3) rfl _).trans (A_eq1 V c 1)

/-- The sum of the two input arrays, row for row. -/
abbrev sum1 (c : Dev nD) : Buf (Elt F) ((c : Thread nD τ).loc main_v30) :=
  addf (s := S800000x128) (V c main_v28) (V c main_v29)

/-- What point t writes back is block t of the sum: the three windows share one index map and one cut, and a block
    of a lane-wise sum is the sum of the blocks. -/
theorem flushed1_2 (c : Dev nD) (t : Fin cfg1.N) :
    (dat1 V c).flushed (2 : Fin 3) t = ((cfg1.win 2).blk t).view.read (Elt F) (sum1 V c) := by
  show win1_0.cut (grid1.coords t) ((dat1 V c).after (2 : Fin 3) t) = _
  rw [after1_2]
  change win1_0.cut (grid1.coords t) (win1_0.fill (grid1.coords t) (fun _ => Scalar.ofBits .f32 0#32)
    (fun j => FloatOps.addf (ablk1 V c t j) (bblk1 V c t j))) = fun j => FloatOps.addf (ablk1 V c t j) (bblk1 V c t j)
  exact win1_0.cut_fill _ _ _

/-- The schedule of the sum's window over the 196 points, decided once: point t's block starts at row 4096 t, spans the
    128 lanes, and holds 4096 rows of the array, the last one 1280. -/
theorem blk_facts1 : ∀ t : Fin cfg1.N, win1_2.index t (0 : Fin 2) = t.val ∧ win1_2.index t (1 : Fin 2) = 0
    ∧ win1_2.xsize (grid1.coords t) (1 : Fin 2) = 128
    ∧ (t.val < 195 → win1_2.xsize (grid1.coords t) (0 : Fin 2) = 4096)
    ∧ (t.val = 195 → win1_2.xsize (grid1.coords t) (0 : Fin 2) = 1280) :=
  (by decide +kernel : ∀ t : Fin grid1.N, _)

/-- An index of the array lies in point t's block iff its row is among the block's rows inside the array. -/
theorem mem_blk1 (t : Fin cfg1.N) (i : S800000x128.Idx) :
    i ∈ ((cfg1.win 2).blk t).view.set ↔ win1_2.index t 0 * 4096 ≤ (i 0 : Nat)
      ∧ (i 0 : Nat) < win1_2.index t 0 * 4096 + win1_2.xsize (grid1.coords t) 0 := by
  show i ∈ ((View.whole main_v30).slice (win1_2.rect t)).set ↔ _
  rw [View.set_slice_whole, Rect.mem_set_unit]
  have h1 : (i 1 : Nat) < 128 := (i 1).isLt
  obtain ⟨-, e1, e2, -, -⟩ := blk_facts1 t
  refine ⟨fun h => h 0, fun h a => ?_⟩
  match a with
  | ⟨0, _⟩ => exact h
  | ⟨1, _⟩ =>
    change win1_2.index t 1 * 128 ≤ (i 1 : Nat) ∧ (i 1 : Nat) < win1_2.index t 1 * 128 + win1_2.xsize (grid1.coords t) 1
    rw [e1, e2]; omega

/-- The output array after the 196 write-backs is the sum of the two input arrays. -/
theorem final1 (c : Dev nD) : (dat1 V c).arrAt 2 cfg1.N = addf (s := S800000x128) (V c main_v28) (V c main_v29) := by
  refine (dat1 V c).arrAt_eq_of_cover (2 : Fin 3) (sum1 V c) (fun t _ => flushed1_2 V c t) fun i => ?_
  -- row r lies in the block of point r / 4096
  have hr : (i 0 : Nat) < 800000 := (i 0).isLt
  have hq : (i 0 : Nat) / 4096 < cfg1.N := by rw [show cfg1.N = 196 from N_1]; omega
  refine ⟨⟨(i 0 : Nat) / 4096, hq⟩, flush1_2 _, ?_⟩
  rw [mem_blk1]
  obtain ⟨e0, -, -, e3, e4⟩ := blk_facts1 ⟨(i 0 : Nat) / 4096, hq⟩
  rw [e0]
  by_cases h : (i 0 : Nat) / 4096 < 195
  · rw [e3 h]; show (i 0 : Nat) / 4096 * 4096 ≤ (i 0 : Nat) ∧ (i 0 : Nat) < (i 0 : Nat) / 4096 * 4096 + 4096; omega
  · have h' : (i 0 : Nat) / 4096 = 195 := by omega
    rw [e4 h']; show (i 0 : Nat) / 4096 * 4096 ≤ (i 0 : Nat) ∧ (i 0 : Nat) < (i 0 : Nat) / 4096 * 4096 + 1280; omega

end Cert.Kernel.Hand

end
-- ==== Proof.Bits.FinishRegion.lean ====
/-
  Region 2 of the kernel program: the finishing stage over blocks of 2000 rows, a grid of 50 points that tile the
  100000 rows exactly. Per point the body loads a block of h, the whole 64x64 matrix, the bias row, the block's column of
  normalisers and the block of x, forms (h_blk · wt + b) * n + x and stores it whole. The matrix and the bias are fetched once,
  at the first point, and stay in their one staging buffer.
-/
import proofs.«158282_j16862041604212_1_alg».proof.Proof.Gen.Kernel.Launch
import proofs.«158282_j16862041604212_1_alg».proof.Proof.Gen.Kernel.Skeleton
import proofs.«158282_j16862041604212_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_h : Rect S2000x64 := Rect.unit (s := S2000x64) ![0, 0] S2000x64.size inb_S2000x64_S2000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_n : Rect S2000x1 := Rect.unit (s := S2000x1) ![0, 0] S2000x1.size inb_S2000x1_S2000x1_0_0

/-- The result window's staging buffer after the body, from the five input blocks: the one whole store. -/
def out2_5 (x0 : Vec F S2000x64 .f32) (x1 : Vec F S64x64 .f32) (x2 : Vec F S1x64 .f32) (x3 : Vec F S2000x1 .f32) (x4 : Vec F S2000x64 .f32) :
    Vec F S2000x64 .f32 :=
  View.canon [⟨r2_h, k2_pay1 (View.ld x0 r2_h) (View.ld x1 r2_w) (View.ld x2 r2_b) (View.ld x3 r2_n) (View.ld x4 r2_h)⟩]

/-- The proof data: the arrays as the region finds them; after the body each input's buffer at its block, the result's at
    out2_5 of the five blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-- The one store covers the result buffer: its rectangle is the whole shape. -/
theorem cover2_5 (p0 : Vec F S2000x64 .f32) (y : S2000x64.Idx) :
    ∃ pc ∈ ([⟨r2_h, p0⟩] : List (View.Piece (Elt F) S2000x64 .f32)), y ∈ pc.1.set :=
  View.cover_of_tiled [⟨r2_h, p0⟩] S2000x64.size (by rfl) y

set_option maxHeartbeats 4000000 in
/-- The body on whole staging buffers, the five inputs' at read contents x0..x4 and the result's at anything, runs to the
    inputs' unchanged and the result's at out2_5 of them. -/
theorem sound_kernel2 (c : Dev nD) (E : Set ℕ) (i : grid2.Coords)
    (arg1 : Memref sig .tc .vmem S2000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S2000x1 .f32) (harg4 : arg4.IsWhole)
    (arg5 : Memref sig .tc .vmem S2000x64 .f32) (harg5 : arg5.IsWhole)
    (arg6 : Memref sig .tc .vmem S2000x64 .f32) (harg6 : arg6.IsWhole)
    (x0 : Vec F S2000x64 .f32) (x1 : Vec F S64x64 .f32) (x2 : Vec F S1x64 .f32) (x3 : Vec F S2000x1 .f32)
    (x4 : Vec F S2000x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__finish_kernel i arg1 harg1 arg2 harg2 arg3 harg3 arg4 harg4 arg5 harg5 arg6 harg6) K := by
  simp only [cc2__finish_kernel_eq_skeleton]; unfold cc2__finish_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- What the body leaves in each input window: its block. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]

/-- Each input's current staging buffer holds its block at every point, fetched there or not: where it was not fetched the
    block index has not moved, and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 4000000 in
/-- The body at any point: the inputs' buffers hold their blocks, so the kernel's triple applies; the invariant and what is
    owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.Regs.lean ====
/-
  The three pallas_calls of the kernel program as segments of its run. Between two items of @main a core holds every unscoped
  buffer at known contents: the launch memory, then each stretch of host operations applied, then, after a region, that
  region's result array at what its write-backs leave (the sum of its two operands for regions 0 and 1, the finishing stage's
  blocks for region 2) and every other buffer as it was. Beside the buffers ride the core's generator register and its owing
  nothing. Each region's record sorts its windows' arrays out of the unscoped buffers on entry and puts them back on exit.
-/
import proofs.«158282_j16862041604212_1_alg».proof.Proof.Gen.Kernel.Regions
import proofs.«158282_j16862041604212_1_alg».proof.Proof.Bits.AddRegion0
import proofs.«158282_j16862041604212_1_alg».proof.Proof.Bits.AddRegion1
import proofs.«158282_j16862041604212_1_alg».proof.Proof.Bits.FinishRegion
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- After the first host stretch (region 0's entry). -/
abbrev W1 (c : Dev nD) : Valuation τ sig (Elt F) := Gen.V1 m c
/-- The same read at the TensorCore's references. -/
abbrev B1 : (c : Dev nD) → (b : Ref sig .tc) → Buf (Elt F) ((c : Thread nD τ).loc b) := fun c b => W1 m c b
/-- What region 0 leaves in its result array. -/
def o2 (c : Dev nD) : Buf (Elt F) ((c : Thread nD τ).loc main_v9) := (dat0 (B1 m) c).arrAt 2 cfg0.N
/-- After region 0: its result array at o2, every other buffer as entered. -/
abbrev W2 (c : Dev nD) : Valuation τ sig (Elt F) := Function.update (W1 m c) main_v9 (o2 m c)
/-- After the second host stretch (region 1's entry). -/
abbrev W3 (c : Dev nD) : Valuation τ sig (Elt F) := StableHlo.after hostOps1 (W2 m c)
abbrev B3 : (c : Dev nD) → (b : Ref sig .tc) → Buf (Elt F) ((c : Thread nD τ).loc b) := fun c b => W3 m c b
/-- What region 1 leaves in its result array. -/
def o4 (c : Dev nD) : Buf (Elt F) ((c : Thread nD τ).loc main_v30) := (dat1 (B3 m) c).arrAt 2 cfg1.N
abbrev W4 (c : Dev nD) : Valuation τ sig (Elt F) := Function.update (W3 m c) main_v30 (o4 m c)
abbrev W5 (c : Dev nD) : Valuation τ sig (Elt F) := StableHlo.after hostOps2 (W4 m c)
abbrev W6 (c : Dev nD) : Valuation τ sig (Elt F) := StableHlo.after hostOps2_1 (W5 m c)
/-- After the last host stretch (region 2's entry). -/
abbrev W7 (c : Dev nD) : Valuation τ sig (Elt F) := StableHlo.after hostOps2_2 (W6 m c)
abbrev B7 : (c : Dev nD) → (b : Ref sig .tc) → Buf (Elt F) ((c : Thread nD τ).loc b) := fun c b => W7 m c b
/-- What region 2 leaves in its result array. -/
def o8 (c : Dev nD) : Buf (Elt F) ((c : Thread nD τ).loc main_v42) := (dat2 (B7 m) c).arrAt 5 cfg2.N
/-- At the end. -/
abbrev W8 (c : Dev nD) : Valuation τ sig (Elt F) := Function.update (W7 m c) main_v42 (o8 m c)

/-! ## The proof data family and what rides beside the buffers -/

abbrev adm : (p : Fin 3) → (pcfgs (F := F) p).Adm := Gen.adm
/-- Every pipeline's proof data, each at its region's entry contents. -/
def pdats : (p : Fin 3) → (c : Dev nD) → Dat τ (Elt F) Unit ℕ (UR sig nD τ) ℕ (cfgs p) c
  | ⟨0, _⟩ => fun c => dat0 (B1 m) c
  | ⟨1, _⟩ => fun c => dat1 (B3 m) c
  | ⟨2, _⟩ => fun c => dat2 (B7 m) c
abbrev 𝒱₀ : Variants := Variants.none
abbrev L : GSem nD τ sig → Finset Unit := fun _ => ∅
abbrev lv : GSem nD τ sig → Unit → ℕ := fun _ _ => 0
/-- The core's generator register at some state and its owing nothing. -/
abbrev R (c : Dev nD) : sProp 𝕄 := iprop((∃ r, prngReg c r) ∗ ∃ W, owes (c : Thread nD τ) (0 : CellTallies nD τ sig Unit) W)

/-! ## The regions as segments -/

/-- The contents after region 0, read at the TensorCore's references. -/
abbrev B2 : (c : Dev nD) → (b : Ref sig .tc) → Buf (Elt F) ((c : Thread nD τ).loc b) := fun c b => W2 m c b

/-- At region 0's exit each of its arrays holds what the pipeline leaves: an input is never written and is no result
    array, so it reads as entered; the result array reads what was put there. -/
theorem hF0_0 (c : Dev nD) : (dat0 (B1 m) c).arrAt 0 cfg0.N = B2 m c (Pipeline.arrRef spec0 0) :=
  ((dat0 (B1 m) c).arrAt_in 0 rfl _).trans ((A_eq0 (B1 m) c 0).trans
    (Function.update_of_ne (StableHlo.devRef_ne_of_ne (by decide)) _ _).symm)
theorem hF0_1 (c : Dev nD) : (dat0 (B1 m) c).arrAt 1 cfg0.N = B2 m c (Pipeline.arrRef spec0 1) :=
  ((dat0 (B1 m) c).arrAt_in 1 rfl _).trans ((A_eq0 (B1 m) c 1).trans
    (Function.update_of_ne (StableHlo.devRef_ne_of_ne (by decide)) _ _).symm)
theorem hF0_2 (c : Dev nD) : (dat0 (B1 m) c).arrAt 2 cfg0.N = B2 m c (Pipeline.arrRef spec0 2) := by
  show o2 m c = Function.update (W1 m c) (Proc.devRef .tc main_v9) (o2 m c) (Proc.devRef .tc main_v9)
  exact (Function.update_self (α := DevRef τ sig) (Proc.devRef .tc main_v9) (o2 m c) (W1 m c)).symm
theorem hF0 (c : Dev nD) (w : Fin cfg0.W) : (dat0 (B1 m) c).arrAt w cfg0.N = B2 m c (Pipeline.arrRef spec0 w) :=
  match w with
  | ⟨0, _⟩ => hF0_0 m c
  | ⟨1, _⟩ => hF0_1 m c
  | ⟨2, _⟩ => hF0_2 m c

/-- Every buffer that is no array of region 0 reads after it as before it. -/
theorem hrest0 (c : Dev nD) : ∀ b, b ∉ Finset.univ.image (Pipeline.arrRef spec0) → B2 m c b = B1 m c b :=
  fun b hb => Function.update_of_ne (StableHlo.devRef_ne_of_ne fun e =>
    hb (Finset.mem_image.mpr ⟨⟨2, by decide⟩, Finset.mem_univ _, e.symm⟩)) _ _

set_option backward.isDefEq.respectTransparency.types false in
/-- Region 0: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (B1 m) c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B1 m c) (B2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The contents after region 1, read at the TensorCore's references. -/
abbrev B4 : (c : Dev nD) → (b : Ref sig .tc) → Buf (Elt F) ((c : Thread nD τ).loc b) := fun c b => W4 m c b

/-- At region 1's exit each of its arrays holds what the pipeline leaves: an input is never written and is no result
    array, so it reads as entered; the result array reads what was put there. -/
theorem hF1_0 (c : Dev nD) : (dat1 (B3 m) c).arrAt 0 cfg1.N = B4 m c (Pipeline.arrRef spec1 0) :=
  ((dat1 (B3 m) c).arrAt_in 0 rfl _).trans ((A_eq1 (B3 m) c 0).trans
    (Function.update_of_ne (StableHlo.devRef_ne_of_ne (by decide)) _ _).symm)
theorem hF1_1 (c : Dev nD) : (dat1 (B3 m) c).arrAt 1 cfg1.N = B4 m c (Pipeline.arrRef spec1 1) :=
  ((dat1 (B3 m) c).arrAt_in 1 rfl _).trans ((A_eq1 (B3 m) c 1).trans
    (Function.update_of_ne (StableHlo.devRef_ne_of_ne (by decide)) _ _).symm)
theorem hF1_2 (c : Dev nD) : (dat1 (B3 m) c).arrAt 2 cfg1.N = B4 m c (Pipeline.arrRef spec1 2) := by
  show o4 m c = Function.update (W3 m c) (Proc.devRef .tc main_v30) (o4 m c) (Proc.devRef .tc main_v30)
  exact (Function.update_self (α := DevRef τ sig) (Proc.devRef .tc main_v30) (o4 m c) (W3 m c)).symm
theorem hF1 (c : Dev nD) (w : Fin cfg1.W) : (dat1 (B3 m) c).arrAt w cfg1.N = B4 m c (Pipeline.arrRef spec1 w) :=
  match w with
  | ⟨0, _⟩ => hF1_0 m c
  | ⟨1, _⟩ => hF1_1 m c
  | ⟨2, _⟩ => hF1_2 m c

/-- Every buffer that is no array of region 1 reads after it as before it. -/
theorem hrest1 (c : Dev nD) : ∀ b, b ∉ Finset.univ.image (Pipeline.arrRef spec1) → B4 m c b = B3 m c b :=
  fun b hb => Function.update_of_ne (StableHlo.devRef_ne_of_ne fun e =>
    hb (Finset.mem_image.mpr ⟨⟨2, by decide⟩, Finset.mem_univ _, e.symm⟩)) _ _

set_option backward.isDefEq.respectTransparency.types false in
/-- Region 1: entered from every unscoped buffer at W3, left at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (B3 m) c
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B3 m c) (B4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The contents after region 2, read at the TensorCore's references. -/
abbrev B8 : (c : Dev nD) → (b : Ref sig .tc) → Buf (Elt F) ((c : Thread nD τ).loc b) := fun c b => W8 m c b

/-- At region 2's exit each of its arrays holds what the pipeline leaves: an input is never written and is no result
    array, so it reads as entered; the result array reads what was put there. -/
theorem hF2_0 (c : Dev nD) : (dat2 (B7 m) c).arrAt 0 cfg2.N = B8 m c (Pipeline.arrRef spec2 0) :=
  ((dat2 (B7 m) c).arrAt_in 0 rfl _).trans ((A_eq2 (B7 m) c 0).trans
    (Function.update_of_ne (StableHlo.devRef_ne_of_ne (by decide)) _ _).symm)
theorem hF2_1 (c : Dev nD) : (dat2 (B7 m) c).arrAt 1 cfg2.N = B8 m c (Pipeline.arrRef spec2 1) :=
  ((dat2 (B7 m) c).arrAt_in 1 rfl _).trans ((A_eq2 (B7 m) c 1).trans
    (Function.update_of_ne (StableHlo.devRef_ne_of_ne (by decide)) _ _).symm)
theorem hF2_2 (c : Dev nD) : (dat2 (B7 m) c).arrAt 2 cfg2.N = B8 m c (Pipeline.arrRef spec2 2) :=
  ((dat2 (B7 m) c).arrAt_in 2 rfl _).trans ((A_eq2 (B7 m) c 2).trans
    (Function.update_of_ne (StableHlo.devRef_ne_of_ne (by decide)) _ _).symm)
theorem hF2_3 (c : Dev nD) : (dat2 (B7 m) c).arrAt 3 cfg2.N = B8 m c (Pipeline.arrRef spec2 3) :=
  ((dat2 (B7 m) c).arrAt_in 3 rfl _).trans ((A_eq2 (B7 m) c 3).trans
    (Function.update_of_ne (StableHlo.devRef_ne_of_ne (by decide)) _ _).symm)
theorem hF2_4 (c : Dev nD) : (dat2 (B7 m) c).arrAt 4 cfg2.N = B8 m c (Pipeline.arrRef spec2 4) :=
  ((dat2 (B7 m) c).arrAt_in 4 rfl _).trans ((A_eq2 (B7 m) c 4).trans
    (Function.update_of_ne (StableHlo.devRef_ne_of_ne (by decide)) _ _).symm)
theorem hF2_5 (c : Dev nD) : (dat2 (B7 m) c).arrAt 5 cfg2.N = B8 m c (Pipeline.arrRef spec2 5) := by
  show o8 m c = Function.update (W7 m c) (Proc.devRef .tc main_v42) (o8 m c) (Proc.devRef .tc main_v42)
  exact (Function.update_self (α := DevRef τ sig) (Proc.devRef .tc main_v42) (o8 m c) (W7 m c)).symm
theorem hF2 (c : Dev nD) (w : Fin cfg2.W) : (dat2 (B7 m) c).arrAt w cfg2.N = B8 m c (Pipeline.arrRef spec2 w) :=
  match w with
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c

/-- Every buffer that is no array of region 2 reads after it as before it. -/
theorem hrest2 (c : Dev nD) : ∀ b, b ∉ Finset.univ.image (Pipeline.arrRef spec2) → B8 m c b = B7 m c b :=
  fun b hb => Function.update_of_ne (StableHlo.devRef_ne_of_ne fun e =>
    hb (Finset.mem_image.mpr ⟨⟨5, by decide⟩, Finset.mem_univ _, e.symm⟩)) _ _

set_option backward.isDefEq.respectTransparency.types false in
/-- Region 2: entered from every unscoped buffer at W7, left at W8. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (B7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B7 m c) (B8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Launch.lean ====
/-
  The run of the kernel program: from any memory with zero counters every weakly fair execution of @main terminates, and in
  every final memory each unscoped buffer holds the contents of the last valuation W8: the launch memory with every host
  stretch applied and every region's result array at what its write-backs leave. The arguments are among those buffers, and no
  item writes one, so they end as launched; the two results are read off the same valuation.
-/
import proofs.«158282_j16862041604212_1_alg».proof.Proof.Bits.Regs
import proofs.«158282_j16862041604212_1_alg».proof.Proof.Bits.RunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The contents the regions leave, as the conditional run names them: after item 1 (region 0) those of W2, after item 3
    (region 1) those of W4, after item 7 (region 2) those of W8. -/
def outs : Gen.Outs (F := F) := fun J r c => if J = 2 then W2 m c r else if J = 4 then W4 m c r else W8 m c r

/-- What the conditional run names as region 0's result is what region 0 leaves. -/
theorem outs_2 (c : Dev nD) : outs m 2 main_v9 c = o2 m c := by
  unfold outs
  rw [if_pos rfl]
  exact Function.update_self _ _ _
/-- What the conditional run names as region 1's result is what region 1 leaves. -/
theorem outs_4 (c : Dev nD) : outs m 4 main_v30 c = o4 m c := by
  unfold outs
  rw [if_neg (by decide), if_pos rfl]
  exact Function.update_self _ _ _
/-- What the conditional run names as region 2's result is what region 2 leaves. -/
theorem outs_8 (c : Dev nD) : outs m 8 main_v42 c = o8 m c := by
  unfold outs
  rw [if_neg (by decide), if_neg (by decide)]
  exact Function.update_self _ _ _

theorem V2_eq (c : Dev nD) : Gen.V2 m (outs m) c = W2 m c := by
  unfold Gen.V2
  rw [outs_2]
theorem V3_eq (c : Dev nD) : Gen.V3 m (outs m) c = W3 m c := by
  unfold Gen.V3
  rw [V2_eq]
theorem V4_eq (c : Dev nD) : Gen.V4 m (outs m) c = W4 m c := by
  unfold Gen.V4
  rw [V3_eq, outs_4]
theorem V7_eq (c : Dev nD) : Gen.V7 m (outs m) c = W7 m c := by
  unfold Gen.V7 Gen.V6 Gen.V5
  rw [V4_eq]
theorem V8_eq (c : Dev nD) : Gen.V8 m (outs m) c = W8 m c := by
  unfold Gen.V8
  rw [V7_eq, outs_8]

set_option backward.isDefEq.respectTransparency.types false in
/-- Every weakly fair execution terminates with every unscoped buffer at the last valuation's contents. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W8 m c b) := by
  have h := GenP.run_cond m (EP := emb₁) (ι := ()) 𝒱₀ L lv (hL := fun _ _ => rfl) ρ (outs m) (pdats m)
    (O₀ := 0) (G := fun _ => iprop(emp))
    (u₀ := initOf (Pipeline.cells cfgs cellOf_inj) (Pipeline.launchToks cfgs cellOf_inj))
    (hu₀ := by
      -- the launch element is the pipelines' own; no core gets a ghost resource beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      -- core by core: of what the launch deals, the generator register and the empty tally are kept
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (reg0 m) (hpre0 := fun c => .rfl) (hpost0 := fun c => by rw [V2_eq]; exact .rfl)
    (reg1 m) (hpre1 := fun c => by rw [V3_eq]; exact .rfl) (hpost1 := fun c => by rw [V4_eq]; exact .rfl)
    (reg2 m) (hpre2 := fun c => by rw [V7_eq]; exact .rfl) (hpost2 := fun c => by rw [V8_eq]; exact .rfl)
  exact (θ_run defs _ _).mono (fun r h c b hb => by rw [← V8_eq]; exact h c b hb) h

/-- An unscoped TensorCore reference is among those buffers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument. -/
theorem W8_main_arg0 (c : Dev nD) : W8 m c main_arg0 = m ((c : Thread nD τ).loc main_arg0) := by
  rw [← V8_eq]; exact Gen.V8_main_arg0 m (outs m) c
theorem W8_main_arg1 (c : Dev nD) : W8 m c main_arg1 = m ((c : Thread nD τ).loc main_arg1) := by
  rw [← V8_eq]; exact Gen.V8_main_arg1 m (outs m) c
theorem W8_main_arg2 (c : Dev nD) : W8 m c main_arg2 = m ((c : Thread nD τ).loc main_arg2) := by
  rw [← V8_eq]; exact Gen.V8_main_arg2 m (outs m) c
theorem W8_main_arg3 (c : Dev nD) : W8 m c main_arg3 = m ((c : Thread nD τ).loc main_arg3) := by
  rw [← V8_eq]; exact Gen.V8_main_arg3 m (outs m) c
theorem W8_main_arg4 (c : Dev nD) : W8 m c main_arg4 = m ((c : Thread nD τ).loc main_arg4) := by
  rw [← V8_eq]; exact Gen.V8_main_arg4 m (outs m) c
theorem W8_main_arg5 (c : Dev nD) : W8 m c main_arg5 = m ((c : Thread nD τ).loc main_arg5) := by
  rw [← V8_eq]; exact Gen.V8_main_arg5 m (outs m) c

/-- The frame: the six argument arrays end as launched. -/
theorem frame_main (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W8_main_arg0 m c), (h c _ (mem_uc main_arg1 (by decide))).trans (W8_main_arg1 m c),
     (h c _ (mem_uc main_arg2 (by decide))).trans (W8_main_arg2 m c), (h c _ (mem_uc main_arg3 (by decide))).trans (W8_main_arg3 m c),
     (h c _ (mem_uc main_arg4 (by decide))).trans (W8_main_arg4 m c), (h c _ (mem_uc main_arg5 (by decide))).trans (W8_main_arg5 m c)⟩)
    (run_main m ρ)

end Cert.Kernel.Hand

end
-- ==== Proof.BitsClaims.lean ====
/-
  The claim about the word-level kernel program: its frame. From any memory with zero counters every weakly fair execution of
  @main terminates, and in every final memory the six argument arrays hold what they held at launch: the run of the kernel
  program, read at words, leaves every unscoped buffer at the last valuation, and no item of @main writes an argument.
-/
import proofs.«158282_j16862041604212_1_alg».proof.Defs
import proofs.«158282_j16862041604212_1_alg».proof.Proof.Bits.Launch
import proofs.«158282_j16862041604212_1_alg».proof.Proof.Gen.Pre_finite_inputs

set_option maxRecDepth 16384

noncomputable section

namespace Cert.Proof.BitsClaims

open Idealize.ShloMosaic Idealize.ShloMosaic.TcCoe Idealize.SL.Sem

theorem frame_k : Cert.frame_Kernel := fun m ρ _ => Cert.Kernel.Hand.frame_main m ρ

end Cert.Proof.BitsClaims

end
-- ==== Proof.AddRegion0.lean ====
/-
  Region 0 of the idealized kernel program: the lane-dense sum of two f32[800000, 128] arrays in blocks of 4096 rows over
  a grid of 196 points. 800000 = 195 · 4096 + 1280, so the last block overhangs both inputs and the output by 2816 rows:
  its fetches and its write-back are cut at the arrays' end. All three windows are loose: the body obligation speaks of
  the rows inside the array only. After the run the output array holds the sum of the two input arrays, row for row.
-/
import proofs.«158282_j16862041604212_1_alg».proof.Proof.Gen.KernelIdeal.Launch
import proofs.«158282_j16862041604212_1_alg».proof.Proof.Gen.KernelIdeal.Skeleton
import proofs.«158282_j16862041604212_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- The first summand's block at point t: the rows of the array that the (possibly cut) block covers. -/
def ablk0 (c : Dev nD) (t : Fin cfg0.N) : (win0_0.xblock (grid0.coords t)).Idx → Elt F .f32 :=
  (win0_0.blk t).view.read (Elt F) (V c main_v7)
/-- The second summand's block at point t (the three windows share one index map and one cut). -/
def bblk0 (c : Dev nD) (t : Fin cfg0.N) : (win0_0.xblock (grid0.coords t)).Idx → Elt F .f32 :=
  (win0_1.blk t).view.read (Elt F) (V c main_v8)

/-- What the three staging buffers hold after the body at point t on the rows inside the array: the two blocks and their
    sum; past the array's end nothing is stated, and the filler is the zero word. -/
def dat0 (c : Dev nD) : Dat τ (Elt F) Unit ℕ (UR sig nD τ) ℕ cfg0 c where
  A w := V c (Pipeline.arrRef spec0 w)
  after w t := match w with
    | ⟨0, _⟩ => win0_0.fill (grid0.coords t) (fun _ => Scalar.ofBits .f32 0#32) (ablk0 V c t)
    | ⟨1, _⟩ => win0_0.fill (grid0.coords t) (fun _ => Scalar.ofBits .f32 0#32) (bblk0 V c t)
    | ⟨2, _⟩ => win0_0.fill (grid0.coords t) (fun _ => Scalar.ofBits .f32 0#32) (fun j => FloatOps.addf (ablk0 V c t j) (bblk0 V c t j))
  Φ _ := Pipeline.ΦA spec0 c
  q _ := fullShare
  owed _ := 0

theorem A_eq0 (c : Dev nD) (w : Fin cfg0.W) : (dat0 V c).A w = V c (Pipeline.arrRef spec0 w) := by
  dsimp only [dat0]

/-- The two zero offsets, spelt as the constant map. -/
theorem zero_offsets0 : (![0, 0] : Fin 2 → Nat) = fun _ => 0 := funext fun a => by fin_cases a <;> rfl

set_option maxHeartbeats 1000000 in
/-- The kernel body on any three whole staging buffers, the summands' holding X0 and X1 and the sum's anything: the
    two loads read X0 and X1, the store covers the sum's buffer, which ends holding the lane-wise sum; the summands'
    buffers are unchanged. -/
theorem sound_add0 (c : Dev nD) (E : Set ℕ) (i : grid0.Coords)
    (a0 : Memref sig .tc .vmem S4096x128 .f32) (h0 : a0.IsWhole) (a1 : Memref sig .tc .vmem S4096x128 .f32) (h1 : a1.IsWhole)
    (a2 : Memref sig .tc .vmem S4096x128 .f32) (h2 : a2.IsWhole)
    (X0 X1 : Vec F S4096x128 .f32) (K : PUnit → sProp 𝕄) :
    iprop(owns (c : Thread nD τ) a0 fullShare X0 ∗ owns (c : Thread nD τ) a1 fullShare X1 ∗ (∃ d, owns (c : Thread nD τ) a2 fullShare d)
        ∗ (iprop(owns (c : Thread nD τ) a0 fullShare X0 ∗ owns (c : Thread nD τ) a1 fullShare X1 ∗ owns (c : Thread nD τ) a2 fullShare (addf X0 X1)) -∗ K ⟨⟩))
      ⊢ wp frame (wpE (defs₀ (F := F)) Variants.none c none) E (cc0__add_kernel i a0 h0 a1 h1 a2 h2) K := by
  simp only [cc0__add_kernel_eq_skeleton]; unfold cc0__add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zero_offsets0 inb_S4096x128_S4096x128_0_0 y⟩),
    View.canon_unit_zero zero_offsets0, View.readAt_eq_ld, View.readAt_eq_ld, View.ld_unit_zero zero_offsets0, View.ld_unit_zero zero_offsets0]
  unfold k0_pay1
  rw [shapeCast_self, shapeCast_self]

/-- What the body finds: each summand's buffer just fetched holds the block on the rows inside the array and the
    earlier contents past its end; -/
theorem before0_0 (c : Dev nD) (t : Fin cfg0.N) (d) :
    (dat0 V c).before (0 : Fin 3) t d = win0_0.fill (grid0.coords t) d (ablk0 V c t) := by
  unfold Dat.before; rw [if_pos (fetch0_0 t)]; rfl
theorem before0_1 (c : Dev nD) (t : Fin cfg0.N) (d) :
    (dat0 V c).before (1 : Fin 3) t d = win0_0.fill (grid0.coords t) d (bblk0 V c t) := by
  unfold Dat.before; rw [if_pos (fetch0_1 t)]; rfl
/-- the sum's buffer, written back at every point and never fetched, holds anything. -/
theorem before0_2 (c : Dev nD) (t : Fin cfg0.N) (d) : (dat0 V c).before (2 : Fin 3) t d = d := by
  refine (dat0 V c).before_out_reset (2 : Fin 3) rfl t ?_ d
  by_cases h : t.val = 0
  · exact .inl h
  · exact .inr ⟨h, flush0_2 _⟩

/-- What the body leaves, window by window. -/
theorem after0_0 (c : Dev nD) (t : Fin cfg0.N) : (dat0 V c).after (0 : Fin 3) t
    = win0_0.fill (grid0.coords t) (fun _ => Scalar.ofBits .f32 0#32) (ablk0 V c t) := by dsimp only [dat0]
theorem after0_1 (c : Dev nD) (t : Fin cfg0.N) : (dat0 V c).after (1 : Fin 3) t
    = win0_0.fill (grid0.coords t) (fun _ => Scalar.ofBits .f32 0#32) (bblk0 V c t) := by dsimp only [dat0]
theorem after0_2 (c : Dev nD) (t : Fin cfg0.N) : (dat0 V c).after (2 : Fin 3) t
    = win0_0.fill (grid0.coords t) (fun _ => Scalar.ofBits .f32 0#32) (fun j => FloatOps.addf (ablk0 V c t j) (bblk0 V c t j)) := by
  dsimp only [dat0]

/-- The body at every point: two whole loads, the sum, a whole store. -/
theorem body_obligation0 (c : Dev nD) : BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0, before0_1 V c t d1, before0_2 V c t d2]
  iapply (sound_add0 (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_0.fill (grid0.coords t) d0 (ablk0 V c t)) (win0_0.fill (grid0.coords t) d1 (bblk0 V c t)) _)
  isplitl [H0]; · iexact H0
  isplitl [H1]; · iexact H1
  isplitl [H2]; · iexists d2; iexact H2
  iintro ⟨H0, H1, H2⟩
  isplitl [HΦ]; · iexact HΦ
  isplitl [Ho]; · iexact Ho
  -- on the rows inside the array each buffer holds what the proof data names; past the array's end the two
  -- summands' buffers hold what they held and the sum's the sum of those
  have ha : win0_0.cut (grid0.coords t) ((dat0 V c).after 0 t) = ablk0 V c t := by
    rw [after0_0]; exact win0_0.cut_fill _ _ _
  have hb : win0_0.cut (grid0.coords t) ((dat0 V c).after 1 t) = bblk0 V c t := by
    rw [after0_1]; exact win0_0.cut_fill _ _ _
  have hs : win0_0.cut (grid0.coords t) ((dat0 V c).after 2 t)
      = fun j => FloatOps.addf (ablk0 V c t j) (bblk0 V c t j) := by
    rw [after0_2]; exact win0_0.cut_fill _ _ _
  have hsum : addf (win0_0.fill (grid0.coords t) d0 (ablk0 V c t)) (win0_0.fill (grid0.coords t) d1 (bblk0 V c t))
      = win0_0.fill (grid0.coords t) (addf d0 d1) (fun j => FloatOps.addf (ablk0 V c t j) (bblk0 V c t j)) := by
    funext j; unfold addf Window.fill; split <;> rfl
  isplitl [H0]
  · iexists d0
    change _ ⊢ owns (c : Thread nD τ) (stage0_0 (cfg0.slots t 0)) fullShare
      (win0_0.fill (grid0.coords t) d0 (win0_0.cut (grid0.coords t) ((dat0 V c).after 0 t)))
    rw [ha]
  isplitl [H1]
  · iexists d1
    change _ ⊢ owns (c : Thread nD τ) (stage0_1 (cfg0.slots t 1)) fullShare
      (win0_0.fill (grid0.coords t) d1 (win0_0.cut (grid0.coords t) ((dat0 V c).after 1 t)))
    rw [hb]
  · iexists addf d0 d1
    change _ ⊢ owns (c : Thread nD τ) (stage0_2 (cfg0.slots t 2)) fullShare
      (win0_0.fill (grid0.coords t) (addf d0 d1) (win0_0.cut (grid0.coords t) ((dat0 V c).after 2 t)))
    rw [hs, ← hsum]

/-- The two inputs are never written. -/
theorem final0_in0 (c : Dev nD) : (dat0 V c).arrAt 0 cfg0.N = V c main_v7 :=
  ((dat0 V c).arrAt_in (0 : Fin 3) rfl _).trans (A_eq0 V c 0)
theorem final0_in1 (c : Dev nD) : (dat0 V c).arrAt 1 cfg0.N = V c main_v8 :=
  ((dat0 V c).arrAt_in (1 : Fin 3) rfl _).trans (A_eq0 V c 1)

/-- The sum of the two input arrays, row for row. -/
abbrev sum0 (c : Dev nD) : Buf (Elt F) ((c : Thread nD τ).loc main_v9) :=
  addf (s := S800000x128) (V c main_v7) (V c main_v8)

/-- What point t writes back is block t of the sum: the three windows share one index map and one cut, and a block
    of a lane-wise sum is the sum of the blocks. -/
theorem flushed0_2 (c : Dev nD) (t : Fin cfg0.N) :
    (dat0 V c).flushed (2 : Fin 3) t = ((cfg0.win 2).blk t).view.read (Elt F) (sum0 V c) := by
  show win0_0.cut (grid0.coords t) ((dat0 V c).after (2 : Fin 3) t) = _
  rw [after0_2]
  change win0_0.cut (grid0.coords t) (win0_0.fill (grid0.coords t) (fun _ => Scalar.ofBits .f32 0#32)
    (fun j => FloatOps.addf (ablk0 V c t j) (bblk0 V c t j))) = fun j => FloatOps.addf (ablk0 V c t j) (bblk0 V c t j)
  exact win0_0.cut_fill _ _ _

/-- The schedule of the sum's window over the 196 points, decided once: point t's block starts at row 4096 t, spans the
    128 lanes, and holds 4096 rows of the array, the last one 1280. -/
theorem blk_facts0 : ∀ t : Fin cfg0.N, win0_2.index t (0 : Fin 2) = t.val ∧ win0_2.index t (1 : Fin 2) = 0
    ∧ win0_2.xsize (grid0.coords t) (1 : Fin 2) = 128
    ∧ (t.val < 195 → win0_2.xsize (grid0.coords t) (0 : Fin 2) = 4096)
    ∧ (t.val = 195 → win0_2.xsize (grid0.coords t) (0 : Fin 2) = 1280) :=
  (by decide +kernel : ∀ t : Fin grid0.N, _)

/-- An index of the array lies in point t's block iff its row is among the block's rows inside the array. -/
theorem mem_blk0 (t : Fin cfg0.N) (i : S800000x128.Idx) :
    i ∈ ((cfg0.win 2).blk t).view.set ↔ win0_2.index t 0 * 4096 ≤ (i 0 : Nat)
      ∧ (i 0 : Nat) < win0_2.index t 0 * 4096 + win0_2.xsize (grid0.coords t) 0 := by
  show i ∈ ((View.whole main_v9).slice (win0_2.rect t)).set ↔ _
  rw [View.set_slice_whole, Rect.mem_set_unit]
  have h1 : (i 1 : Nat) < 128 := (i 1).isLt
  obtain ⟨-, e1, e2, -, -⟩ := blk_facts0 t
  refine ⟨fun h => h 0, fun h a => ?_⟩
  match a with
  | ⟨0, _⟩ => exact h
  | ⟨1, _⟩ =>
    change win0_2.index t 1 * 128 ≤ (i 1 : Nat) ∧ (i 1 : Nat) < win0_2.index t 1 * 128 + win0_2.xsize (grid0.coords t) 1
    rw [e1, e2]; omega

/-- The output array after the 196 write-backs is the sum of the two input arrays. -/
theorem final0 (c : Dev nD) : (dat0 V c).arrAt 2 cfg0.N = addf (s := S800000x128) (V c main_v7) (V c main_v8) := by
  refine (dat0 V c).arrAt_eq_of_cover (2 : Fin 3) (sum0 V c) (fun t _ => flushed0_2 V c t) fun i => ?_
  -- row r lies in the block of point r / 4096
  have hr : (i 0 : Nat) < 800000 := (i 0).isLt
  have hq : (i 0 : Nat) / 4096 < cfg0.N := by rw [show cfg0.N = 196 from N_0]; omega
  refine ⟨⟨(i 0 : Nat) / 4096, hq⟩, flush0_2 _, ?_⟩
  rw [mem_blk0]
  obtain ⟨e0, -, -, e3, e4⟩ := blk_facts0 ⟨(i 0 : Nat) / 4096, hq⟩
  rw [e0]
  by_cases h : (i 0 : Nat) / 4096 < 195
  · rw [e3 h]; show (i 0 : Nat) / 4096 * 4096 ≤ (i 0 : Nat) ∧ (i 0 : Nat) < (i 0 : Nat) / 4096 * 4096 + 4096; omega
  · have h' : (i 0 : Nat) / 4096 = 195 := by omega
    rw [e4 h']; show (i 0 : Nat) / 4096 * 4096 ≤ (i 0 : Nat) ∧ (i 0 : Nat) < (i 0 : Nat) / 4096 * 4096 + 1280; omega

end Cert.KernelIdeal.Hand

end
-- ==== Proof.AddRegion1.lean ====
/-
  Region 1 of the idealized kernel program: the lane-dense sum of two f32[800000, 128] arrays in blocks of 4096 rows over
  a grid of 196 points. 800000 = 195 · 4096 + 1280, so the last block overhangs both inputs and the output by 2816 rows:
  its fetches and its write-back are cut at the arrays' end. All three windows are loose: the body obligation speaks of
  the rows inside the array only. After the run the output array holds the sum of the two input arrays, row for row.
-/
import proofs.«158282_j16862041604212_1_alg».proof.Proof.Gen.KernelIdeal.Launch
import proofs.«158282_j16862041604212_1_alg».proof.Proof.Gen.KernelIdeal.Skeleton
import proofs.«158282_j16862041604212_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- The first summand's block at point t: the rows of the array that the (possibly cut) block covers. -/
def ablk1 (c : Dev nD) (t : Fin cfg1.N) : (win1_0.xblock (grid1.coords t)).Idx → Elt F .f32 :=
  (win1_0.blk t).view.read (Elt F) (V c main_v28)
/-- The second summand's block at point t (the three windows share one index map and one cut). -/
def bblk1 (c : Dev nD) (t : Fin cfg1.N) : (win1_0.xblock (grid1.coords t)).Idx → Elt F .f32 :=
  (win1_1.blk t).view.read (Elt F) (V c main_v29)

/-- What the three staging buffers hold after the body at point t on the rows inside the array: the two blocks and their
    sum; past the array's end nothing is stated, and the filler is the zero word. -/
def dat1 (c : Dev nD) : Dat τ (Elt F) Unit ℕ (UR sig nD τ) ℕ cfg1 c where
  A w := V c (Pipeline.arrRef spec1 w)
  after w t := match w with
    | ⟨0, _⟩ => win1_0.fill (grid1.coords t) (fun _ => Scalar.ofBits .f32 0#32) (ablk1 V c t)
    | ⟨1, _⟩ => win1_0.fill (grid1.coords t) (fun _ => Scalar.ofBits .f32 0#32) (bblk1 V c t)
    | ⟨2, _⟩ => win1_0.fill (grid1.coords t) (fun _ => Scalar.ofBits .f32 0#32) (fun j => FloatOps.addf (ablk1 V c t j) (bblk1 V c t j))
  Φ _ := Pipeline.ΦA spec1 c
  q _ := fullShare
  owed _ := 0

theorem A_eq1 (c : Dev nD) (w : Fin cfg1.W) : (dat1 V c).A w = V c (Pipeline.arrRef spec1 w) := by
  dsimp only [dat1]

/-- The two zero offsets, spelt as the constant map. -/
theorem zero_offsets1 : (![0, 0] : Fin 2 → Nat) = fun _ => 0 := funext fun a => by fin_cases a <;> rfl

set_option maxHeartbeats 1000000 in
/-- The kernel body on any three whole staging buffers, the summands' holding X0 and X1 and the sum's anything: the
    two loads read X0 and X1, the store covers the sum's buffer, which ends holding the lane-wise sum; the summands'
    buffers are unchanged. -/
theorem sound_add1 (c : Dev nD) (E : Set ℕ) (i : grid1.Coords)
    (a0 : Memref sig .tc .vmem S4096x128 .f32) (h0 : a0.IsWhole) (a1 : Memref sig .tc .vmem S4096x128 .f32) (h1 : a1.IsWhole)
    (a2 : Memref sig .tc .vmem S4096x128 .f32) (h2 : a2.IsWhole)
    (X0 X1 : Vec F S4096x128 .f32) (K : PUnit → sProp 𝕄) :
    iprop(owns (c : Thread nD τ) a0 fullShare X0 ∗ owns (c : Thread nD τ) a1 fullShare X1 ∗ (∃ d, owns (c : Thread nD τ) a2 fullShare d)
        ∗ (iprop(owns (c : Thread nD τ) a0 fullShare X0 ∗ owns (c : Thread nD τ) a1 fullShare X1 ∗ owns (c : Thread nD τ) a2 fullShare (addf X0 X1)) -∗ K ⟨⟩))
      ⊢ wp frame (wpE (defs₀ (F := F)) Variants.none c none) E (cc1__add_kernel i a0 h0 a1 h1 a2 h2) K := by
  simp only [cc1__add_kernel_eq_skeleton]; unfold cc1__add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zero_offsets1 inb_S4096x128_S4096x128_0_0 y⟩),
    View.canon_unit_zero zero_offsets1, View.readAt_eq_ld, View.readAt_eq_ld, View.ld_unit_zero zero_offsets1, View.ld_unit_zero zero_offsets1]
  unfold k1_pay1
  rw [shapeCast_self, shapeCast_self]

/-- What the body finds: each summand's buffer just fetched holds the block on the rows inside the array and the
    earlier contents past its end; -/
theorem before1_0 (c : Dev nD) (t : Fin cfg1.N) (d) :
    (dat1 V c).before (0 : Fin 3) t d = win1_0.fill (grid1.coords t) d (ablk1 V c t) := by
  unfold Dat.before; rw [if_pos (fetch1_0 t)]; rfl
theorem before1_1 (c : Dev nD) (t : Fin cfg1.N) (d) :
    (dat1 V c).before (1 : Fin 3) t d = win1_0.fill (grid1.coords t) d (bblk1 V c t) := by
  unfold Dat.before; rw [if_pos (fetch1_1 t)]; rfl
/-- the sum's buffer, written back at every point and never fetched, holds anything. -/
theorem before1_2 (c : Dev nD) (t : Fin cfg1.N) (d) : (dat1 V c).before (2 : Fin 3) t d = d := by
  refine (dat1 V c).before_out_reset (2 : Fin 3) rfl t ?_ d
  by_cases h : t.val = 0
  · exact .inl h
  · exact .inr ⟨h, flush1_2 _⟩

/-- What the body leaves, window by window. -/
theorem after1_0 (c : Dev nD) (t : Fin cfg1.N) : (dat1 V c).after (0 : Fin 3) t
    = win1_0.fill (grid1.coords t) (fun _ => Scalar.ofBits .f32 0#32) (ablk1 V c t) := by dsimp only [dat1]
theorem after1_1 (c : Dev nD) (t : Fin cfg1.N) : (dat1 V c).after (1 : Fin 3) t
    = win1_0.fill (grid1.coords t) (fun _ => Scalar.ofBits .f32 0#32) (bblk1 V c t) := by dsimp only [dat1]
theorem after1_2 (c : Dev nD) (t : Fin cfg1.N) : (dat1 V c).after (2 : Fin 3) t
    = win1_0.fill (grid1.coords t) (fun _ => Scalar.ofBits .f32 0#32) (fun j => FloatOps.addf (ablk1 V c t j) (bblk1 V c t j)) := by
  dsimp only [dat1]

/-- The body at every point: two whole loads, the sum, a whole store. -/
theorem body_obligation1 (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1, before1_2 V c t d2]
  iapply (sound_add1 (F := F) c Set.univ (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_0.fill (grid1.coords t) d0 (ablk1 V c t)) (win1_0.fill (grid1.coords t) d1 (bblk1 V c t)) _)
  isplitl [H0]; · iexact H0
  isplitl [H1]; · iexact H1
  isplitl [H2]; · iexists d2; iexact H2
  iintro ⟨H0, H1, H2⟩
  isplitl [HΦ]; · iexact HΦ
  isplitl [Ho]; · iexact Ho
  -- on the rows inside the array each buffer holds what the proof data names; past the array's end the two
  -- summands' buffers hold what they held and the sum's the sum of those
  have ha : win1_0.cut (grid1.coords t) ((dat1 V c).after 0 t) = ablk1 V c t := by
    rw [after1_0]; exact win1_0.cut_fill _ _ _
  have hb : win1_0.cut (grid1.coords t) ((dat1 V c).after 1 t) = bblk1 V c t := by
    rw [after1_1]; exact win1_0.cut_fill _ _ _
  have hs : win1_0.cut (grid1.coords t) ((dat1 V c).after 2 t)
      = fun j => FloatOps.addf (ablk1 V c t j) (bblk1 V c t j) := by
    rw [after1_2]; exact win1_0.cut_fill _ _ _
  have hsum : addf (win1_0.fill (grid1.coords t) d0 (ablk1 V c t)) (win1_0.fill (grid1.coords t) d1 (bblk1 V c t))
      = win1_0.fill (grid1.coords t) (addf d0 d1) (fun j => FloatOps.addf (ablk1 V c t j) (bblk1 V c t j)) := by
    funext j; unfold addf Window.fill; split <;> rfl
  isplitl [H0]
  · iexists d0
    change _ ⊢ owns (c : Thread nD τ) (stage1_0 (cfg1.slots t 0)) fullShare
      (win1_0.fill (grid1.coords t) d0 (win1_0.cut (grid1.coords t) ((dat1 V c).after 0 t)))
    rw [ha]
  isplitl [H1]
  · iexists d1
    change _ ⊢ owns (c : Thread nD τ) (stage1_1 (cfg1.slots t 1)) fullShare
      (win1_0.fill (grid1.coords t) d1 (win1_0.cut (grid1.coords t) ((dat1 V c).after 1 t)))
    rw [hb]
  · iexists addf d0 d1
    change _ ⊢ owns (c : Thread nD τ) (stage1_2 (cfg1.slots t 2)) fullShare
      (win1_0.fill (grid1.coords t) (addf d0 d1) (win1_0.cut (grid1.coords t) ((dat1 V c).after 2 t)))
    rw [hs, ← hsum]

/-- The two inputs are never written. -/
theorem final1_in0 (c : Dev nD) : (dat1 V c).arrAt 0 cfg1.N = V c main_v28 :=
  ((dat1 V c).arrAt_in (0 : Fin 3) rfl _).trans (A_eq1 V c 0)
theorem final1_in1 (c : Dev nD) : (dat1 V c).arrAt 1 cfg1.N = V c main_v29 :=
  ((dat1 V c).arrAt_in (1 : Fin 3) rfl _).trans (A_eq1 V c 1)

/-- The sum of the two input arrays, row for row. -/
abbrev sum1 (c : Dev nD) : Buf (Elt F) ((c : Thread nD τ).loc main_v30) :=
  addf (s := S800000x128) (V c main_v28) (V c main_v29)

/-- What point t writes back is block t of the sum: the three windows share one index map and one cut, and a block
    of a lane-wise sum is the sum of the blocks. -/
theorem flushed1_2 (c : Dev nD) (t : Fin cfg1.N) :
    (dat1 V c).flushed (2 : Fin 3) t = ((cfg1.win 2).blk t).view.read (Elt F) (sum1 V c) := by
  show win1_0.cut (grid1.coords t) ((dat1 V c).after (2 : Fin 3) t) = _
  rw [after1_2]
  change win1_0.cut (grid1.coords t) (win1_0.fill (grid1.coords t) (fun _ => Scalar.ofBits .f32 0#32)
    (fun j => FloatOps.addf (ablk1 V c t j) (bblk1 V c t j))) = fun j => FloatOps.addf (ablk1 V c t j) (bblk1 V c t j)
  exact win1_0.cut_fill _ _ _

/-- The schedule of the sum's window over the 196 points, decided once: point t's block starts at row 4096 t, spans the
    128 lanes, and holds 4096 rows of the array, the last one 1280. -/
theorem blk_facts1 : ∀ t : Fin cfg1.N, win1_2.index t (0 : Fin 2) = t.val ∧ win1_2.index t (1 : Fin 2) = 0
    ∧ win1_2.xsize (grid1.coords t) (1 : Fin 2) = 128
    ∧ (t.val < 195 → win1_2.xsize (grid1.coords t) (0 : Fin 2) = 4096)
    ∧ (t.val = 195 → win1_2.xsize (grid1.coords t) (0 : Fin 2) = 1280) :=
  (by decide +kernel : ∀ t : Fin grid1.N, _)

/-- An index of the array lies in point t's block iff its row is among the block's rows inside the array. -/
theorem mem_blk1 (t : Fin cfg1.N) (i : S800000x128.Idx) :
    i ∈ ((cfg1.win 2).blk t).view.set ↔ win1_2.index t 0 * 4096 ≤ (i 0 : Nat)
      ∧ (i 0 : Nat) < win1_2.index t 0 * 4096 + win1_2.xsize (grid1.coords t) 0 := by
  show i ∈ ((View.whole main_v30).slice (win1_2.rect t)).set ↔ _
  rw [View.set_slice_whole, Rect.mem_set_unit]
  have h1 : (i 1 : Nat) < 128 := (i 1).isLt
  obtain ⟨-, e1, e2, -, -⟩ := blk_facts1 t
  refine ⟨fun h => h 0, fun h a => ?_⟩
  match a with
  | ⟨0, _⟩ => exact h
  | ⟨1, _⟩ =>
    change win1_2.index t 1 * 128 ≤ (i 1 : Nat) ∧ (i 1 : Nat) < win1_2.index t 1 * 128 + win1_2.xsize (grid1.coords t) 1
    rw [e1, e2]; omega

/-- The output array after the 196 write-backs is the sum of the two input arrays. -/
theorem final1 (c : Dev nD) : (dat1 V c).arrAt 2 cfg1.N = addf (s := S800000x128) (V c main_v28) (V c main_v29) := by
  refine (dat1 V c).arrAt_eq_of_cover (2 : Fin 3) (sum1 V c) (fun t _ => flushed1_2 V c t) fun i => ?_
  -- row r lies in the block of point r / 4096
  have hr : (i 0 : Nat) < 800000 := (i 0).isLt
  have hq : (i 0 : Nat) / 4096 < cfg1.N := by rw [show cfg1.N = 196 from N_1]; omega
  refine ⟨⟨(i 0 : Nat) / 4096, hq⟩, flush1_2 _, ?_⟩
  rw [mem_blk1]
  obtain ⟨e0, -, -, e3, e4⟩ := blk_facts1 ⟨(i 0 : Nat) / 4096, hq⟩
  rw [e0]
  by_cases h : (i 0 : Nat) / 4096 < 195
  · rw [e3 h]; show (i 0 : Nat) / 4096 * 4096 ≤ (i 0 : Nat) ∧ (i 0 : Nat) < (i 0 : Nat) / 4096 * 4096 + 4096; omega
  · have h' : (i 0 : Nat) / 4096 = 195 := by omega
    rw [e4 h']; show (i 0 : Nat) / 4096 * 4096 ≤ (i 0 : Nat) ∧ (i 0 : Nat) < (i 0 : Nat) / 4096 * 4096 + 1280; omega

end Cert.KernelIdeal.Hand

end
-- ==== Proof.FinishRegion.lean ====
/-
  Region 2 of the idealized kernel program: the finishing stage over blocks of 2000 rows, a grid of 50 points that tile the
  100000 rows exactly. Per point the body loads a block of h, the whole 64x64 matrix, the bias row, the block's column of
  normalisers and the block of x, forms (h_blk · wt + b) * n + x and stores it whole. The matrix and the bias are fetched once,
  at the first point, and stay in their one staging buffer.
-/
import proofs.«158282_j16862041604212_1_alg».proof.Proof.Gen.KernelIdeal.Launch
import proofs.«158282_j16862041604212_1_alg».proof.Proof.Gen.KernelIdeal.Skeleton
import proofs.«158282_j16862041604212_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_h : Rect S2000x64 := Rect.unit (s := S2000x64) ![0, 0] S2000x64.size inb_S2000x64_S2000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_n : Rect S2000x1 := Rect.unit (s := S2000x1) ![0, 0] S2000x1.size inb_S2000x1_S2000x1_0_0

/-- The result window's staging buffer after the body, from the five input blocks: the one whole store. -/
def out2_5 (x0 : Vec F S2000x64 .f32) (x1 : Vec F S64x64 .f32) (x2 : Vec F S1x64 .f32) (x3 : Vec F S2000x1 .f32) (x4 : Vec F S2000x64 .f32) :
    Vec F S2000x64 .f32 :=
  View.canon [⟨r2_h, k2_pay1 (View.ld x0 r2_h) (View.ld x1 r2_w) (View.ld x2 r2_b) (View.ld x3 r2_n) (View.ld x4 r2_h)⟩]

/-- The proof data: the arrays as the region finds them; after the body each input's buffer at its block, the result's at
    out2_5 of the five blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-- The one store covers the result buffer: its rectangle is the whole shape. -/
theorem cover2_5 (p0 : Vec F S2000x64 .f32) (y : S2000x64.Idx) :
    ∃ pc ∈ ([⟨r2_h, p0⟩] : List (View.Piece (Elt F) S2000x64 .f32)), y ∈ pc.1.set :=
  View.cover_of_tiled [⟨r2_h, p0⟩] S2000x64.size (by rfl) y

set_option maxHeartbeats 4000000 in
/-- The body on whole staging buffers, the five inputs' at read contents x0..x4 and the result's at anything, runs to the
    inputs' unchanged and the result's at out2_5 of them. -/
theorem sound_kernel2 (c : Dev nD) (E : Set ℕ) (i : grid2.Coords)
    (arg1 : Memref sig .tc .vmem S2000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S2000x1 .f32) (harg4 : arg4.IsWhole)
    (arg5 : Memref sig .tc .vmem S2000x64 .f32) (harg5 : arg5.IsWhole)
    (arg6 : Memref sig .tc .vmem S2000x64 .f32) (harg6 : arg6.IsWhole)
    (x0 : Vec F S2000x64 .f32) (x1 : Vec F S64x64 .f32) (x2 : Vec F S1x64 .f32) (x3 : Vec F S2000x1 .f32)
    (x4 : Vec F S2000x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__finish_kernel i arg1 harg1 arg2 harg2 arg3 harg3 arg4 harg4 arg5 harg5 arg6 harg6) K := by
  simp only [cc2__finish_kernel_eq_skeleton]; unfold cc2__finish_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- What the body leaves in each input window: its block. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]

/-- Each input's current staging buffer holds its block at every point, fetched there or not: where it was not fetched the
    block index has not moved, and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 4000000 in
/-- The body at any point: the inputs' buffers hold their blocks, so the kernel's triple applies; the invariant and what is
    owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Regs.lean ====
/-
  The three pallas_calls of the kernel program as segments of its run. Between two items of @main a core holds every unscoped
  buffer at known contents: the launch memory, then each stretch of host operations applied, then, after a region, that
  region's result array at what its write-backs leave (the sum of its two operands for regions 0 and 1, the finishing stage's
  blocks for region 2) and every other buffer as it was. Beside the buffers ride the core's generator register and its owing
  nothing. Each region's record sorts its windows' arrays out of the unscoped buffers on entry and puts them back on exit.
-/
import proofs.«158282_j16862041604212_1_alg».proof.Proof.Gen.KernelIdeal.Regions
import proofs.«158282_j16862041604212_1_alg».proof.Proof.AddRegion0
import proofs.«158282_j16862041604212_1_alg».proof.Proof.AddRegion1
import proofs.«158282_j16862041604212_1_alg».proof.Proof.FinishRegion
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- After the first host stretch (region 0's entry). -/
abbrev W1 (c : Dev nD) : Valuation τ sig (Elt F) := Gen.V1 m c
/-- The same read at the TensorCore's references. -/
abbrev B1 : (c : Dev nD) → (b : Ref sig .tc) → Buf (Elt F) ((c : Thread nD τ).loc b) := fun c b => W1 m c b
/-- What region 0 leaves in its result array. -/
def o2 (c : Dev nD) : Buf (Elt F) ((c : Thread nD τ).loc main_v9) := (dat0 (B1 m) c).arrAt 2 cfg0.N
/-- After region 0: its result array at o2, every other buffer as entered. -/
abbrev W2 (c : Dev nD) : Valuation τ sig (Elt F) := Function.update (W1 m c) main_v9 (o2 m c)
/-- After the second host stretch (region 1's entry). -/
abbrev W3 (c : Dev nD) : Valuation τ sig (Elt F) := StableHlo.after hostOps1 (W2 m c)
abbrev B3 : (c : Dev nD) → (b : Ref sig .tc) → Buf (Elt F) ((c : Thread nD τ).loc b) := fun c b => W3 m c b
/-- What region 1 leaves in its result array. -/
def o4 (c : Dev nD) : Buf (Elt F) ((c : Thread nD τ).loc main_v30) := (dat1 (B3 m) c).arrAt 2 cfg1.N
abbrev W4 (c : Dev nD) : Valuation τ sig (Elt F) := Function.update (W3 m c) main_v30 (o4 m c)
abbrev W5 (c : Dev nD) : Valuation τ sig (Elt F) := StableHlo.after hostOps2 (W4 m c)
abbrev W6 (c : Dev nD) : Valuation τ sig (Elt F) := StableHlo.after hostOps2_1 (W5 m c)
/-- After the last host stretch (region 2's entry). -/
abbrev W7 (c : Dev nD) : Valuation τ sig (Elt F) := StableHlo.after hostOps2_2 (W6 m c)
abbrev B7 : (c : Dev nD) → (b : Ref sig .tc) → Buf (Elt F) ((c : Thread nD τ).loc b) := fun c b => W7 m c b
/-- What region 2 leaves in its result array. -/
def o8 (c : Dev nD) : Buf (Elt F) ((c : Thread nD τ).loc main_v42) := (dat2 (B7 m) c).arrAt 5 cfg2.N
/-- At the end. -/
abbrev W8 (c : Dev nD) : Valuation τ sig (Elt F) := Function.update (W7 m c) main_v42 (o8 m c)

/-! ## The proof data family and what rides beside the buffers -/

abbrev adm : (p : Fin 3) → (pcfgs (F := F) p).Adm := Gen.adm
/-- Every pipeline's proof data, each at its region's entry contents. -/
def pdats : (p : Fin 3) → (c : Dev nD) → Dat τ (Elt F) Unit ℕ (UR sig nD τ) ℕ (cfgs p) c
  | ⟨0, _⟩ => fun c => dat0 (B1 m) c
  | ⟨1, _⟩ => fun c => dat1 (B3 m) c
  | ⟨2, _⟩ => fun c => dat2 (B7 m) c
abbrev 𝒱₀ : Variants := Variants.none
abbrev L : GSem nD τ sig → Finset Unit := fun _ => ∅
abbrev lv : GSem nD τ sig → Unit → ℕ := fun _ _ => 0
/-- The core's generator register at some state and its owing nothing. -/
abbrev R (c : Dev nD) : sProp 𝕄 := iprop((∃ r, prngReg c r) ∗ ∃ W, owes (c : Thread nD τ) (0 : CellTallies nD τ sig Unit) W)

/-! ## The regions as segments -/

/-- The contents after region 0, read at the TensorCore's references. -/
abbrev B2 : (c : Dev nD) → (b : Ref sig .tc) → Buf (Elt F) ((c : Thread nD τ).loc b) := fun c b => W2 m c b

/-- At region 0's exit each of its arrays holds what the pipeline leaves: an input is never written and is no result
    array, so it reads as entered; the result array reads what was put there. -/
theorem hF0_0 (c : Dev nD) : (dat0 (B1 m) c).arrAt 0 cfg0.N = B2 m c (Pipeline.arrRef spec0 0) :=
  ((dat0 (B1 m) c).arrAt_in 0 rfl _).trans ((A_eq0 (B1 m) c 0).trans
    (Function.update_of_ne (StableHlo.devRef_ne_of_ne (by decide)) _ _).symm)
theorem hF0_1 (c : Dev nD) : (dat0 (B1 m) c).arrAt 1 cfg0.N = B2 m c (Pipeline.arrRef spec0 1) :=
  ((dat0 (B1 m) c).arrAt_in 1 rfl _).trans ((A_eq0 (B1 m) c 1).trans
    (Function.update_of_ne (StableHlo.devRef_ne_of_ne (by decide)) _ _).symm)
theorem hF0_2 (c : Dev nD) : (dat0 (B1 m) c).arrAt 2 cfg0.N = B2 m c (Pipeline.arrRef spec0 2) := by
  show o2 m c = Function.update (W1 m c) (Proc.devRef .tc main_v9) (o2 m c) (Proc.devRef .tc main_v9)
  exact (Function.update_self (α := DevRef τ sig) (Proc.devRef .tc main_v9) (o2 m c) (W1 m c)).symm
theorem hF0 (c : Dev nD) (w : Fin cfg0.W) : (dat0 (B1 m) c).arrAt w cfg0.N = B2 m c (Pipeline.arrRef spec0 w) :=
  match w with
  | ⟨0, _⟩ => hF0_0 m c
  | ⟨1, _⟩ => hF0_1 m c
  | ⟨2, _⟩ => hF0_2 m c

/-- Every buffer that is no array of region 0 reads after it as before it. -/
theorem hrest0 (c : Dev nD) : ∀ b, b ∉ Finset.univ.image (Pipeline.arrRef spec0) → B2 m c b = B1 m c b :=
  fun b hb => Function.update_of_ne (StableHlo.devRef_ne_of_ne fun e =>
    hb (Finset.mem_image.mpr ⟨⟨2, by decide⟩, Finset.mem_univ _, e.symm⟩)) _ _

set_option backward.isDefEq.respectTransparency.types false in
/-- Region 0: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (B1 m) c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B1 m c) (B2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The contents after region 1, read at the TensorCore's references. -/
abbrev B4 : (c : Dev nD) → (b : Ref sig .tc) → Buf (Elt F) ((c : Thread nD τ).loc b) := fun c b => W4 m c b

/-- At region 1's exit each of its arrays holds what the pipeline leaves: an input is never written and is no result
    array, so it reads as entered; the result array reads what was put there. -/
theorem hF1_0 (c : Dev nD) : (dat1 (B3 m) c).arrAt 0 cfg1.N = B4 m c (Pipeline.arrRef spec1 0) :=
  ((dat1 (B3 m) c).arrAt_in 0 rfl _).trans ((A_eq1 (B3 m) c 0).trans
    (Function.update_of_ne (StableHlo.devRef_ne_of_ne (by decide)) _ _).symm)
theorem hF1_1 (c : Dev nD) : (dat1 (B3 m) c).arrAt 1 cfg1.N = B4 m c (Pipeline.arrRef spec1 1) :=
  ((dat1 (B3 m) c).arrAt_in 1 rfl _).trans ((A_eq1 (B3 m) c 1).trans
    (Function.update_of_ne (StableHlo.devRef_ne_of_ne (by decide)) _ _).symm)
theorem hF1_2 (c : Dev nD) : (dat1 (B3 m) c).arrAt 2 cfg1.N = B4 m c (Pipeline.arrRef spec1 2) := by
  show o4 m c = Function.update (W3 m c) (Proc.devRef .tc main_v30) (o4 m c) (Proc.devRef .tc main_v30)
  exact (Function.update_self (α := DevRef τ sig) (Proc.devRef .tc main_v30) (o4 m c) (W3 m c)).symm
theorem hF1 (c : Dev nD) (w : Fin cfg1.W) : (dat1 (B3 m) c).arrAt w cfg1.N = B4 m c (Pipeline.arrRef spec1 w) :=
  match w with
  | ⟨0, _⟩ => hF1_0 m c
  | ⟨1, _⟩ => hF1_1 m c
  | ⟨2, _⟩ => hF1_2 m c

/-- Every buffer that is no array of region 1 reads after it as before it. -/
theorem hrest1 (c : Dev nD) : ∀ b, b ∉ Finset.univ.image (Pipeline.arrRef spec1) → B4 m c b = B3 m c b :=
  fun b hb => Function.update_of_ne (StableHlo.devRef_ne_of_ne fun e =>
    hb (Finset.mem_image.mpr ⟨⟨2, by decide⟩, Finset.mem_univ _, e.symm⟩)) _ _

set_option backward.isDefEq.respectTransparency.types false in
/-- Region 1: entered from every unscoped buffer at W3, left at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (B3 m) c
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B3 m c) (B4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The contents after region 2, read at the TensorCore's references. -/
abbrev B8 : (c : Dev nD) → (b : Ref sig .tc) → Buf (Elt F) ((c : Thread nD τ).loc b) := fun c b => W8 m c b

/-- At region 2's exit each of its arrays holds what the pipeline leaves: an input is never written and is no result
    array, so it reads as entered; the result array reads what was put there. -/
theorem hF2_0 (c : Dev nD) : (dat2 (B7 m) c).arrAt 0 cfg2.N = B8 m c (Pipeline.arrRef spec2 0) :=
  ((dat2 (B7 m) c).arrAt_in 0 rfl _).trans ((A_eq2 (B7 m) c 0).trans
    (Function.update_of_ne (StableHlo.devRef_ne_of_ne (by decide)) _ _).symm)
theorem hF2_1 (c : Dev nD) : (dat2 (B7 m) c).arrAt 1 cfg2.N = B8 m c (Pipeline.arrRef spec2 1) :=
  ((dat2 (B7 m) c).arrAt_in 1 rfl _).trans ((A_eq2 (B7 m) c 1).trans
    (Function.update_of_ne (StableHlo.devRef_ne_of_ne (by decide)) _ _).symm)
theorem hF2_2 (c : Dev nD) : (dat2 (B7 m) c).arrAt 2 cfg2.N = B8 m c (Pipeline.arrRef spec2 2) :=
  ((dat2 (B7 m) c).arrAt_in 2 rfl _).trans ((A_eq2 (B7 m) c 2).trans
    (Function.update_of_ne (StableHlo.devRef_ne_of_ne (by decide)) _ _).symm)
theorem hF2_3 (c : Dev nD) : (dat2 (B7 m) c).arrAt 3 cfg2.N = B8 m c (Pipeline.arrRef spec2 3) :=
  ((dat2 (B7 m) c).arrAt_in 3 rfl _).trans ((A_eq2 (B7 m) c 3).trans
    (Function.update_of_ne (StableHlo.devRef_ne_of_ne (by decide)) _ _).symm)
theorem hF2_4 (c : Dev nD) : (dat2 (B7 m) c).arrAt 4 cfg2.N = B8 m c (Pipeline.arrRef spec2 4) :=
  ((dat2 (B7 m) c).arrAt_in 4 rfl _).trans ((A_eq2 (B7 m) c 4).trans
    (Function.update_of_ne (StableHlo.devRef_ne_of_ne (by decide)) _ _).symm)
theorem hF2_5 (c : Dev nD) : (dat2 (B7 m) c).arrAt 5 cfg2.N = B8 m c (Pipeline.arrRef spec2 5) := by
  show o8 m c = Function.update (W7 m c) (Proc.devRef .tc main_v42) (o8 m c) (Proc.devRef .tc main_v42)
  exact (Function.update_self (α := DevRef τ sig) (Proc.devRef .tc main_v42) (o8 m c) (W7 m c)).symm
theorem hF2 (c : Dev nD) (w : Fin cfg2.W) : (dat2 (B7 m) c).arrAt w cfg2.N = B8 m c (Pipeline.arrRef spec2 w) :=
  match w with
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c

/-- Every buffer that is no array of region 2 reads after it as before it. -/
theorem hrest2 (c : Dev nD) : ∀ b, b ∉ Finset.univ.image (Pipeline.arrRef spec2) → B8 m c b = B7 m c b :=
  fun b hb => Function.update_of_ne (StableHlo.devRef_ne_of_ne fun e =>
    hb (Finset.mem_image.mpr ⟨⟨5, by decide⟩, Finset.mem_univ _, e.symm⟩)) _ _

set_option backward.isDefEq.respectTransparency.types false in
/-- Region 2: entered from every unscoped buffer at W7, left at W8. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (B7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B7 m c) (B8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Launch.lean ====
/-
  The run of the kernel program: from any memory with zero counters every weakly fair execution of @main terminates, and in
  every final memory each unscoped buffer holds the contents of the last valuation W8: the launch memory with every host
  stretch applied and every region's result array at what its write-backs leave. The arguments are among those buffers, and no
  item writes one, so they end as launched; the two results are read off the same valuation.
-/
import proofs.«158282_j16862041604212_1_alg».proof.Proof.Regs
import proofs.«158282_j16862041604212_1_alg».proof.Proof.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The contents the regions leave, as the conditional run names them: after item 1 (region 0) those of W2, after item 3
    (region 1) those of W4, after item 7 (region 2) those of W8. -/
def outs : Gen.Outs (F := F) := fun J r c => if J = 2 then W2 m c r else if J = 4 then W4 m c r else W8 m c r

/-- What the conditional run names as region 0's result is what region 0 leaves. -/
theorem outs_2 (c : Dev nD) : outs m 2 main_v9 c = o2 m c := by
  unfold outs
  rw [if_pos rfl]
  exact Function.update_self _ _ _
/-- What the conditional run names as region 1's result is what region 1 leaves. -/
theorem outs_4 (c : Dev nD) : outs m 4 main_v30 c = o4 m c := by
  unfold outs
  rw [if_neg (by decide), if_pos rfl]
  exact Function.update_self _ _ _
/-- What the conditional run names as region 2's result is what region 2 leaves. -/
theorem outs_8 (c : Dev nD) : outs m 8 main_v42 c = o8 m c := by
  unfold outs
  rw [if_neg (by decide), if_neg (by decide)]
  exact Function.update_self _ _ _

theorem V2_eq (c : Dev nD) : Gen.V2 m (outs m) c = W2 m c := by
  unfold Gen.V2
  rw [outs_2]
theorem V3_eq (c : Dev nD) : Gen.V3 m (outs m) c = W3 m c := by
  unfold Gen.V3
  rw [V2_eq]
theorem V4_eq (c : Dev nD) : Gen.V4 m (outs m) c = W4 m c := by
  unfold Gen.V4
  rw [V3_eq, outs_4]
theorem V7_eq (c : Dev nD) : Gen.V7 m (outs m) c = W7 m c := by
  unfold Gen.V7 Gen.V6 Gen.V5
  rw [V4_eq]
theorem V8_eq (c : Dev nD) : Gen.V8 m (outs m) c = W8 m c := by
  unfold Gen.V8
  rw [V7_eq, outs_8]

set_option backward.isDefEq.respectTransparency.types false in
/-- Every weakly fair execution terminates with every unscoped buffer at the last valuation's contents. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W8 m c b) := by
  have h := GenP.run_cond m (EP := emb₁) (ι := ()) 𝒱₀ L lv (hL := fun _ _ => rfl) ρ (outs m) (pdats m)
    (O₀ := 0) (G := fun _ => iprop(emp))
    (u₀ := initOf (Pipeline.cells cfgs cellOf_inj) (Pipeline.launchToks cfgs cellOf_inj))
    (hu₀ := by
      -- the launch element is the pipelines' own; no core gets a ghost resource beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      -- core by core: of what the launch deals, the generator register and the empty tally are kept
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (reg0 m) (hpre0 := fun c => .rfl) (hpost0 := fun c => by rw [V2_eq]; exact .rfl)
    (reg1 m) (hpre1 := fun c => by rw [V3_eq]; exact .rfl) (hpost1 := fun c => by rw [V4_eq]; exact .rfl)
    (reg2 m) (hpre2 := fun c => by rw [V7_eq]; exact .rfl) (hpost2 := fun c => by rw [V8_eq]; exact .rfl)
  exact (θ_run defs _ _).mono (fun r h c b hb => by rw [← V8_eq]; exact h c b hb) h

/-- An unscoped TensorCore reference is among those buffers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument. -/
theorem W8_main_arg0 (c : Dev nD) : W8 m c main_arg0 = m ((c : Thread nD τ).loc main_arg0) := by
  rw [← V8_eq]; exact Gen.V8_main_arg0 m (outs m) c
theorem W8_main_arg1 (c : Dev nD) : W8 m c main_arg1 = m ((c : Thread nD τ).loc main_arg1) := by
  rw [← V8_eq]; exact Gen.V8_main_arg1 m (outs m) c
theorem W8_main_arg2 (c : Dev nD) : W8 m c main_arg2 = m ((c : Thread nD τ).loc main_arg2) := by
  rw [← V8_eq]; exact Gen.V8_main_arg2 m (outs m) c
theorem W8_main_arg3 (c : Dev nD) : W8 m c main_arg3 = m ((c : Thread nD τ).loc main_arg3) := by
  rw [← V8_eq]; exact Gen.V8_main_arg3 m (outs m) c
theorem W8_main_arg4 (c : Dev nD) : W8 m c main_arg4 = m ((c : Thread nD τ).loc main_arg4) := by
  rw [← V8_eq]; exact Gen.V8_main_arg4 m (outs m) c
theorem W8_main_arg5 (c : Dev nD) : W8 m c main_arg5 = m ((c : Thread nD τ).loc main_arg5) := by
  rw [← V8_eq]; exact Gen.V8_main_arg5 m (outs m) c

/-- The frame: the six argument arrays end as launched. -/
theorem frame_main (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W8_main_arg0 m c), (h c _ (mem_uc main_arg1 (by decide))).trans (W8_main_arg1 m c),
     (h c _ (mem_uc main_arg2 (by decide))).trans (W8_main_arg2 m c), (h c _ (mem_uc main_arg3 (by decide))).trans (W8_main_arg3 m c),
     (h c _ (mem_uc main_arg4 (by decide))).trans (W8_main_arg4 m c), (h c _ (mem_uc main_arg5 (by decide))).trans (W8_main_arg5 m c)⟩)
    (run_main m ρ)

end Cert.KernelIdeal.Hand

end
-- ==== Proof.ReshapeAdd.lean ====
/-
  A lane-wise sum commutes with a change of layout: two f32[1600000, 64] arrays laid out as f32[800000, 128], added, and laid
  out as f32[1600000, 64] again are the sum of the two arrays. A reshape moves the element at row-major position n to
  row-major position n, and the sum is taken position by position.
-/
import proofs.«158282_j16862041604212_1_alg».proof.KernelIdeal
import proofs.«158282_j16862041604212_1_alg».proof.Proof.Gen.KernelIdeal
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The sum of two relaid arrays, laid back, is the sum of the arrays. -/
theorem reshape_addf (a b : FVec F S1600000x64 .f32) :
    shapeCast S1600000x64 (addf (shapeCast S800000x128 a shapeCasts_S1600000x64_S800000x128) (shapeCast S800000x128 b shapeCasts_S1600000x64_S800000x128))
        shapeCasts_S800000x128_S1600000x64
      = addf a b := by
  -- each array laid out and laid back is itself
  have ha := shapeCast_shapeCast a shapeCasts_S1600000x64_S800000x128 shapeCasts_S800000x128_S1600000x64
  have hb := shapeCast_shapeCast b shapeCasts_S1600000x64_S800000x128 shapeCasts_S800000x128_S1600000x64
  funext i
  -- the sum is taken position by position, so laying the sum back lays each summand back
  calc shapeCast S1600000x64 (addf (shapeCast S800000x128 a shapeCasts_S1600000x64_S800000x128)
            (shapeCast S800000x128 b shapeCasts_S1600000x64_S800000x128)) shapeCasts_S800000x128_S1600000x64 i
      = FloatOps.addf
          (shapeCast S1600000x64 (shapeCast S800000x128 a shapeCasts_S1600000x64_S800000x128) shapeCasts_S800000x128_S1600000x64 i)
          (shapeCast S1600000x64 (shapeCast S800000x128 b shapeCasts_S1600000x64_S800000x128) shapeCasts_S800000x128_S1600000x64 i) := rfl
    _ = FloatOps.addf (a i) (b i) := by rw [ha, hb]
    _ = addf a b i := rfl

end Cert.KernelIdeal.Hand

end
-- ==== Proof.FinishSpec.lean ====
/-
  The finishing stage as one function of whole arrays, index by index, over the extended reals:
  out(p, q) = (Σ_{k<64} h(p, k) · wt(k, q) + b(0, q)) · n(p, 0) + x(p, q)
  for p < 100000, q < 64: a row of h against a column of wt, the bias row added, the row's normaliser multiplied in,
  the residual added. Nothing here mentions a program: both sides of the certificate are compared with this function.
-/
import Idealize.ShloMosaic.PureOps.Ideal
import Idealize.ShloMosaic.Lib.ValueIdx

noncomputable section

namespace Cert.FinishSpec

open Idealize.ShloMosaic Idealize.ShloMosaic.ValueIdx

/-- The value at row p and column q. -/
def finishAt (h : FVec Ideal ⟨2, ![100000, 64]⟩ .f32) (wt : FVec Ideal ⟨2, ![64, 64]⟩ .f32) (b : FVec Ideal ⟨2, ![1, 64]⟩ .f32)
    (n : FVec Ideal ⟨2, ![100000, 1]⟩ .f32) (x : FVec Ideal ⟨2, ![100000, 64]⟩ .f32) (p : Fin 100000) (q : Fin 64) : EReal :=
  ((∑ k : Fin 64, h (ix2 p k) * wt (ix2 k q)) + b (ix2 (0 : Fin 1) q)) * n (ix2 p (0 : Fin 1)) + x (ix2 p q)

/-- The whole result array. -/
def finishG (h : FVec Ideal ⟨2, ![100000, 64]⟩ .f32) (wt : FVec Ideal ⟨2, ![64, 64]⟩ .f32) (b : FVec Ideal ⟨2, ![1, 64]⟩ .f32)
    (n : FVec Ideal ⟨2, ![100000, 1]⟩ .f32) (x : FVec Ideal ⟨2, ![100000, 64]⟩ .f32) : FVec Ideal ⟨2, ![100000, 64]⟩ .f32 :=
  fun i => finishAt h wt b n x (i 0) (i 1)

/-- A vector of 64 numbers as one row. -/
def rowOf (b : FVec Ideal ⟨1, ![64]⟩ .f32) : FVec Ideal ⟨2, ![1, 64]⟩ .f32 := fun i => b (ix1 (i 1))

/-- A vector of 100000 numbers as one column. -/
def colOf (n : FVec Ideal ⟨1, ![100000]⟩ .f32) : FVec Ideal ⟨2, ![100000, 1]⟩ .f32 := fun i => n (ix1 (i 0))

theorem finishG_apply (h : FVec Ideal ⟨2, ![100000, 64]⟩ .f32) (wt : FVec Ideal ⟨2, ![64, 64]⟩ .f32) (b : FVec Ideal ⟨2, ![1, 64]⟩ .f32)
    (n : FVec Ideal ⟨2, ![100000, 1]⟩ .f32) (x : FVec Ideal ⟨2, ![100000, 64]⟩ .f32) (p : Fin 100000) (q : Fin 64) :
    finishG h wt b n x (ix2 p q) = finishAt h wt b n x p q := rfl

end Cert.FinishSpec

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.FinishValue.lean ====
/-
  The finishing stage's result array after the 50 write-backs, at the extended reals: block t holds rows 2000·t … 2000·t + 1999,
  and entry (r, q) of the block's result is (Σ_k h(2000·t + r, k) · wt(k, q) + b(0, q)) · n(2000·t + r, 0) + x(2000·t + r, q):
  the narrowing of the operands to bf16 is the identity at the extended reals, the matrix unit's product into a zero
  accumulator is the plain sum of products, the bias row is repeated down the rows and the normaliser column across them.
  The blocks tile the 100000 rows, so the array is the whole-array function FinishSpec.finishG of the five operand arrays.
-/
import proofs.«158282_j16862041604212_1_alg».proof.Proof.FinishRegion
import proofs.«158282_j16862041604212_1_alg».proof.Proof.FinishSpec
import proofs.«158282_j16862041604212_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Hand Idealize.ShloMosaic.ValueIdx

-- the contents of core c's buffers when the region is entered
variable (V : (c : Dev nD) → (b : Ref sig .tc) → Buf (Elt Ideal) ((c : Thread nD τ).loc b))

/-- A column of a numbers repeated across b columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's result at row r and column q of a block, from the five loaded blocks. -/
theorem pay_apply (x0 : Vec Ideal S2000x64 .f32) (x1 : Vec Ideal S64x64 .f32) (x2 : Vec Ideal S1x64 .f32)
    (x3 : Vec Ideal S2000x1 .f32) (x4 : Vec Ideal S2000x64 .f32) (r : Fin 2000) (q : Fin 64) :
    k2_pay1 x0 x1 x2 x3 x4 (ix2 r q)
      = ((∑ k : Fin 64, x0 (ix2 r k) * x1 (ix2 k q)) + x2 (ix2 (0 : Fin 1) q)) * x3 (ix2 r (0 : Fin 1)) + x4 (ix2 r q) := by
  unfold k2_pay1
  simp only [shapeCast_self]
  have hb : broadcastTo S2000x64 x2 broadcasts_S1x64_S2000x64 (ix2 r q) = x2 (ix2 (0 : Fin 1) q) :=
    broadcastTo_1b_ab_apply x2 broadcasts_S1x64_S2000x64 r q
  have hn : broadcastTo S2000x64 x3 broadcasts_S2000x1_S2000x64 (ix2 r q) = x3 (ix2 r (0 : Fin 1)) :=
    broadcastTo_a1_ab_apply x3 broadcasts_S2000x1_S2000x64 r q
  have hm : matmul dot_S2000x64_S64x64_S2000x64_1_0_0_1_n_n none (truncf (F := Ideal) .bf16 x0 bitsLt_bf16_f32)
        (truncf (F := Ideal) .bf16 x1 bitsLt_bf16_f32) (constant (F := Ideal) S2000x64 .f32 0x00000000#32) (ix2 r q)
      = ∑ k : Fin 64, x0 (ix2 r k) * x1 (ix2 k q) :=
    (Ideal.matmul_constant_zero_apply dot_S2000x64_S64x64_S2000x64_1_0_0_1_n_n none _ _ (ix2 r q)).trans
      (PlainDot.sum_eq (M := EReal) dot_S2000x64_S64x64_S2000x64_1_0_0_1_n_n rfl rfl rfl rfl rfl rfl
        (fun i => x0 i) (fun i => x1 i) r q)
  exact congrArg₂ (· + ·) (congrArg₂ (· * ·) (congrArg₂ (· + ·) hm hb) hn) rfl

theorem hz : (![0, 0] : Fin 2 → Nat) = fun _ => 0 := funext fun a => by fin_cases a <;> rfl

/-- The block index of each window at each point: the row windows are at block t on axis 0 and block 0 on axis 1,
    the matrix and the bias row at block (0, 0) throughout. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row r of block t is row 2000·t + r of the array. -/
def rowAt (t : Fin cfg2.N) (r : Fin 2000) : Fin 100000 :=
  ⟨t.val * 2000 + r.val, by have := lt_of_lt_of_eq t.isLt N_2; have := r.isLt; omega⟩

/-- Where each window's block at point t lies in its array. -/
theorem emb0 (t : Fin cfg2.N) (r : Fin 2000) (k : Fin 64) :
    ((cfg2.win 0).blk t).view.emb (ix2 r k) = ix2 (rowAt t r) k := by
  obtain ⟨e0, e1, -⟩ := idx_facts t
  funext a; apply Fin.ext
  match a with
  | ⟨0, _⟩ => show win2_0.index t (0 : Fin 2) * 2000 + 1 * r.val = t.val * 2000 + r.val; rw [e0]; omega
  | ⟨1, _⟩ => show win2_0.index t (1 : Fin 2) * 64 + 1 * k.val = k.val; rw [e1]; omega

theorem emb1 (t : Fin cfg2.N) (k : Fin 64) (q : Fin 64) :
    ((cfg2.win 1).blk t).view.emb (ix2 k q) = ix2 k q := by
  obtain ⟨-, -, e0, e1, -⟩ := idx_facts t
  funext a; apply Fin.ext
  match a with
  | ⟨0, _⟩ => show win2_1.index t (0 : Fin 2) * 64 + 1 * k.val = k.val; rw [e0]; omega
  | ⟨1, _⟩ => show win2_1.index t (1 : Fin 2) * 64 + 1 * q.val = q.val; rw [e1]; omega

theorem emb2 (t : Fin cfg2.N) (u : Fin 1) (q : Fin 64) :
    ((cfg2.win 2).blk t).view.emb (ix2 u q) = ix2 u q := by
  obtain ⟨-, -, -, -, e0, e1, -⟩ := idx_facts t
  funext a; apply Fin.ext
  match a with
  | ⟨0, _⟩ => show win2_2.index t (0 : Fin 2) * 1 + 1 * u.val = u.val; rw [e0]; omega
  | ⟨1, _⟩ => show win2_2.index t (1 : Fin 2) * 64 + 1 * q.val = q.val; rw [e1]; omega

theorem emb3 (t : Fin cfg2.N) (r : Fin 2000) (u : Fin 1) :
    ((cfg2.win 3).blk t).view.emb (ix2 r u) = ix2 (rowAt t r) u := by
  obtain ⟨-, -, -, -, -, -, e0, e1, -⟩ := idx_facts t
  funext a; apply Fin.ext
  match a with
  | ⟨0, _⟩ => show win2_3.index t (0 : Fin 2) * 2000 + 1 * r.val = t.val * 2000 + r.val; rw [e0]; omega
  | ⟨1, _⟩ => show win2_3.index t (1 : Fin 2) * 1 + 1 * u.val = u.val; rw [e1]; omega

theorem emb4 (t : Fin cfg2.N) (r : Fin 2000) (q : Fin 64) :
    ((cfg2.win 4).blk t).view.emb (ix2 r q) = ix2 (rowAt t r) q := by
  obtain ⟨-, -, -, -, -, -, -, -, e0, e1, -⟩ := idx_facts t
  funext a; apply Fin.ext
  match a with
  | ⟨0, _⟩ => show win2_4.index t (0 : Fin 2) * 2000 + 1 * r.val = t.val * 2000 + r.val; rw [e0]; omega
  | ⟨1, _⟩ => show win2_4.index t (1 : Fin 2) * 64 + 1 * q.val = q.val; rw [e1]; omega

theorem emb5 (t : Fin cfg2.N) (r : Fin 2000) (q : Fin 64) :
    ((cfg2.win 5).blk t).view.emb (ix2 r q) = ix2 (rowAt t r) q := by
  obtain ⟨-, -, -, -, -, -, -, -, -, -, e0, e1⟩ := idx_facts t
  funext a; apply Fin.ext
  match a with
  | ⟨0, _⟩ => show win2_5.index t (0 : Fin 2) * 2000 + 1 * r.val = t.val * 2000 + r.val; rw [e0]; omega
  | ⟨1, _⟩ => show win2_5.index t (1 : Fin 2) * 64 + 1 * q.val = q.val; rw [e1]; omega

/-- The body's result at (r, q) of a block whose inputs are the arrays' entries on row p is the finishing function
    at (p, q). -/
theorem pay_eq_finish (A0 : FVec Ideal ⟨2, ![100000, 64]⟩ .f32) (A1 : FVec Ideal ⟨2, ![64, 64]⟩ .f32)
    (A2 : FVec Ideal ⟨2, ![1, 64]⟩ .f32) (A3 : FVec Ideal ⟨2, ![100000, 1]⟩ .f32) (A4 : FVec Ideal ⟨2, ![100000, 64]⟩ .f32)
    (x0 : Vec Ideal S2000x64 .f32) (x1 : Vec Ideal S64x64 .f32) (x2 : Vec Ideal S1x64 .f32)
    (x3 : Vec Ideal S2000x1 .f32) (x4 : Vec Ideal S2000x64 .f32) (p : Fin 100000) (r : Fin 2000) (q : Fin 64)
    (h0 : ∀ k : Fin 64, x0 (ix2 r k) = A0 (ix2 p k)) (h1 : ∀ k : Fin 64, x1 (ix2 k q) = A1 (ix2 k q))
    (h2 : x2 (ix2 (0 : Fin 1) q) = A2 (ix2 (0 : Fin 1) q)) (h3 : x3 (ix2 r (0 : Fin 1)) = A3 (ix2 p (0 : Fin 1)))
    (h4 : x4 (ix2 r q) = A4 (ix2 p q)) :
    k2_pay1 x0 x1 x2 x3 x4 (ix2 r q) = Cert.FinishSpec.finishG A0 A1 A2 A3 A4 (ix2 p q) := by
  rw [pay_apply, Cert.FinishSpec.finishG_apply, h2, h3, h4]
  unfold Cert.FinishSpec.finishAt
  rw [Finset.sum_congr rfl fun k _ => by rw [h0 k, h1 k]]

/-- What point t writes back is block t of the finishing function of the operand arrays. -/
theorem flushed_eq (c : Dev nD) (t : Fin cfg2.N) :
    (dat2 (F := Ideal) V c).flushed 5 t = ((cfg2.win 5).blk t).view.read (Elt Ideal)
      (Cert.FinishSpec.finishG (V c main_v13) (V c main_v39) (V c main_v40) (V c main_v41) (V c main_arg0)) := by
  show (cfg2.win 5).cut (grid2.coords t) ((dat2 V c).after 5 t) = _
  rw [after2_5]
  unfold out2_5
  rw [View.canon_unit_zero hz]
  simp only [View.ld_unit_zero (S := S2000x64) hz, View.ld_unit_zero (S := S64x64) hz, View.ld_unit_zero (S := S1x64) hz,
    View.ld_unit_zero (S := S2000x1) hz]
  funext j
  revert j
  show ∀ j : S2000x64.Idx, k2_pay1 (iblk2 V c 0 t) (iblk2 V c 1 t) (iblk2 V c 2 t) (iblk2 V c 3 t) (iblk2 V c 4 t) j
      = Cert.FinishSpec.finishG (V c main_v13) (V c main_v39) (V c main_v40) (V c main_v41) (V c main_arg0)
          (((cfg2.win 5).blk t).view.emb j)
  intro j
  obtain ⟨r, q, rfl⟩ : ∃ (r : Fin 2000) (q : Fin 64), j = ix2 r q := ⟨j 0, j 1, eq_ix2 j⟩
  refine (pay_eq_finish (V c main_v13) (V c main_v39) (V c main_v40) (V c main_v41) (V c main_arg0)
    (iblk2 V c 0 t) (iblk2 V c 1 t) (iblk2 V c 2 t) (iblk2 V c 3 t) (iblk2 V c 4 t) (rowAt t r) r q
    (fun k => congrArg (V c main_v13) (emb0 t r k)) (fun k => congrArg (V c main_v39) (emb1 t k q))
    (congrArg (V c main_v40) (emb2 t 0 q)) (congrArg (V c main_v41) (emb3 t r 0))
    (congrArg (V c main_arg0) (emb4 t r q))).trans ?_
  exact congrArg _ (emb5 t r q).symm

/-- An index of the array is in point t's block iff each coordinate is in the block's range on its axis. -/
theorem mem_blk (t : Fin cfg2.N) (i : S100000x64.Idx) :
    i ∈ ((cfg2.win 5).blk t).view.set ↔ ∀ a : Fin 2, win2_5.index t a * S2000x64.size a ≤ (i a).val
      ∧ (i a).val < win2_5.index t a * S2000x64.size a + S2000x64.size a := by
  show i ∈ ((View.whole main_v42).slice (win2_5.rect t)).set ↔ _
  rw [View.set_slice_whole, Rect.mem_set_unit]
  exact Iff.rfl

/-- The 50 blocks of 2000 rows tile the 100000 rows: row p is in block p / 2000, and every point writes back. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ : ∃ t : Fin cfg2.N, t.val = (i 0).val / 2000 :=
    ⟨⟨(i 0).val / 2000, lt_of_lt_of_eq (by omega : (i 0).val / 2000 < 50) N_2.symm⟩, rfl⟩
  refine ⟨t, flush2_5 t, ?_⟩
  rw [mem_blk]
  obtain ⟨-, -, -, -, -, -, -, -, -, -, e0, e1⟩ := idx_facts t
  intro a
  match a with
  | ⟨0, _⟩ =>
    show win2_5.index t (0 : Fin 2) * 2000 ≤ (i 0).val ∧ (i 0).val < win2_5.index t (0 : Fin 2) * 2000 + 2000
    rw [e0, ht]; omega
  | ⟨1, _⟩ =>
    show win2_5.index t (1 : Fin 2) * 64 ≤ (i 1).val ∧ (i 1).val < win2_5.index t (1 : Fin 2) * 64 + 64
    rw [e1]; omega

/-- The result array after the run is the finishing function of the five operand arrays as the region found them. -/
theorem final2 (c : Dev nD) :
    (dat2 (F := Ideal) V c).arrAt 5 cfg2.N
      = Cert.FinishSpec.finishG (V c main_v13) (V c main_v39) (V c main_v40) (V c main_v41) (V c main_arg0) :=
  (dat2 (F := Ideal) V c).arrAt_eq_of_cover 5
    (Cert.FinishSpec.finishG (V c main_v13) (V c main_v39) (V c main_v40) (V c main_v41) (V c main_arg0))
    (fun t _ => flushed_eq V c t) cover

/-- A vector of 64 numbers reshaped to one row is that row. -/
theorem reshape_row (b : FVec Ideal S64 .f32) : shapeCast S1x64 b shapeCasts_S64_S1x64 = Cert.FinishSpec.rowOf b := by
  funext i
  obtain ⟨u, q, rfl⟩ : ∃ (u : Fin 1) (q : Fin 64), i = ix2 u q := ⟨i 0, i 1, eq_ix2 i⟩
  exact shapeCast_a_1a_apply b shapeCasts_S64_S1x64 u q

/-- A vector of 100000 numbers reshaped to one column is that column. -/
theorem reshape_col (n : FVec Ideal S100000 .f32) : shapeCast S100000x1 n shapeCasts_S100000_S100000x1 = Cert.FinishSpec.colOf n := by
  funext i
  obtain ⟨p, u, rfl⟩ : ∃ (p : Fin 100000) (u : Fin 1), i = ix2 p u := ⟨i 0, i 1, eq_ix2 i⟩
  refine shapeCast_apply n shapeCasts_S100000_S100000x1 (ix2 p u) (ix1 p) ?_
  have hu : u.val = 0 := by omega
  rw [Shape.rowMajor_val_two, Shape.rowMajor_val_one]
  show p.val = p.val * 1 + u.val
  rw [hu, Nat.mul_one, Nat.add_zero]

end Cert.KernelIdeal.HandValue

end
-- ==== Proof.KernelValue.lean ====
/-
  The two results of the kernel program as functions of its six arguments x, e (edge features), W, b, src, dst.
  The first pallas_call adds two arrays laid out as f32[800000, 128]; laid back as f32[1600000, 64] its result is the sum of
  the gathered node rows and the edge rows: the messages. Their scatter-sum over the destination nodes is the aggregate h.
  The second pallas_call likewise yields h's rows gathered at the sources plus h's rows gathered at the destinations: the
  second result. The third yields the finishing function of h, the transposed weights, the bias as a row, the in-degree
  normaliser as a column, and x: the first result.
-/
import proofs.«158282_j16862041604212_1_alg».proof.Proof.Regs
import proofs.«158282_j16862041604212_1_alg».proof.Proof.ReshapeAdd
import proofs.«158282_j16862041604212_1_alg».proof.Proof.FinishValue
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.StableHlo
variable {F : FTy → Type} [FloatOps F]

local notation "𝕄" => MT nD τ sig Unit (Elt F) ℕ (UR sig nD τ) ℕ

variable (m : (ℓ : Loc nD τ sig) → Buf (Elt F) ℓ)

/-- A vector of node numbers as gather/scatter start indices: a negative number counts from the end (100000 is added),
    and each number becomes a one-element index vector. -/
def nidx (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

/-- The messages: the source node's row plus the edge's row. -/
def msgK (x : FVec F S100000x64 .f32) (e : FVec F S1600000x64 .f32) (src : IVec S1600000 32) : FVec F S1600000x64 .f32 :=
  addf (Host.gather gather_S100000x64_S1600000x1_S1600000x64_1_0_n_n_0_1_164 x (nidx src)) e

/-- The aggregate: each node's row is the sum of the messages of the edges that end in it. -/
def aggK (x : FVec F S100000x64 .f32) (e : FVec F S1600000x64 .f32) (src dst : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst) (msgK x e src)

/-- The updated edge rows: the aggregate at the edge's source plus the aggregate at its destination. -/
def edgeK (h : FVec F S100000x64 .f32) (src dst : IVec S1600000 32) : FVec F S1600000x64 .f32 :=
  addf (Host.gather gather_S100000x64_S1600000x1_S1600000x64_1_0_n_n_0_1_164 h (nidx src))
    (Host.gather gather_S100000x64_S1600000x1_S1600000x64_1_0_n_n_0_1_164 h (nidx dst))

/-- The normaliser: the in-degree, at least one, to the power minus one half. -/
def normK (dst : IVec S1600000 32) : FVec F S100000 .f32 :=
  Host.powf
    (maximumf (broadcastInDim S100000 ![] bcast_S_S100000 (id (constant S_ .f32 0x3F800000#32)))
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32))))
    (broadcastInDim S100000 ![] bcast_S_S100000 (constant S_ .f32 0xBF000000#32))

/-! ## Buffers no item has written yet -/

theorem upd_ne (V : Valuation τ sig (Elt F)) (r b : Ref sig .tc) (x : Buf (Elt F) ((0 : Dev nD), (Proc.devRef .tc r : DevRef τ sig))) (h : b ≠ r) :
    Function.update V (Proc.devRef .tc r) x (Proc.devRef .tc b) = V (Proc.devRef .tc b) :=
  Function.update_of_ne (StableHlo.devRef_ne_of_ne h) _ _

theorem W1_of (c : Dev nD) (r : Ref sig .tc) (h : r ∉ Gen.hostOps0_W) : W1 m c r = m ((c : Thread nD τ).loc r) := Gen.V1_of m c r h
theorem W2_of (c : Dev nD) (r : Ref sig .tc) (h : r ≠ main_v9) : W2 m c r = W1 m c r := upd_ne _ _ _ _ h
theorem W3_of (c : Dev nD) (r : Ref sig .tc) (h : r ∉ Gen.hostOps1_W) : W3 m c r = W2 m c r :=
  StableHlo.after_of_writes_sub hostOps1 _ Gen.hostOps1_writes h
theorem W4_of (c : Dev nD) (r : Ref sig .tc) (h : r ≠ main_v30) : W4 m c r = W3 m c r := upd_ne _ _ _ _ h

/-! ## The arguments, short names -/

abbrev ax (c : Dev nD) : FVec F S100000x64 .f32 := m ((c : Thread nD τ).loc main_arg0)
abbrev ae (c : Dev nD) : FVec F S1600000x64 .f32 := m ((c : Thread nD τ).loc main_arg1)
abbrev aw (c : Dev nD) : FVec F S64x64 .f32 := m ((c : Thread nD τ).loc main_arg2)
abbrev ab (c : Dev nD) : FVec F S64 .f32 := m ((c : Thread nD τ).loc main_arg3)
abbrev asrc (c : Dev nD) : IVec S1600000 32 := m ((c : Thread nD τ).loc main_arg4)
abbrev adst (c : Dev nD) : IVec S1600000 32 := m ((c : Thread nD τ).loc main_arg5)

/-! ## Region 0: the messages -/

theorem B1_v7 (c : Dev nD) : B1 m c main_v7
    = shapeCast S800000x128 (Host.gather gather_S100000x64_S1600000x1_S1600000x64_1_0_n_n_0_1_164 (ax m c) (nidx (asrc m c))) shapeCasts_S1600000x64_S800000x128 := by
  show StableHlo.after hostOps0 (Gen.V0 m c) (Proc.devRef .tc main_v7) = _
  dsimp only [Gen.hostOps0]
  after_results
  rfl

theorem B1_v8 (c : Dev nD) : B1 m c main_v8 = shapeCast S800000x128 (ae m c) shapeCasts_S1600000x64_S800000x128 := by
  show StableHlo.after hostOps0 (Gen.V0 m c) (Proc.devRef .tc main_v8) = _
  dsimp only [Gen.hostOps0]
  after_results
  rfl

/-- Region 0's result array: the two relaid operands, added. -/
theorem W2_v9 (c : Dev nD) : W2 m c main_v9 = addf (s := S800000x128) (B1 m c main_v7) (B1 m c main_v8) := by
  show Function.update (W1 m c) (Proc.devRef .tc main_v9) (o2 m c) (Proc.devRef .tc main_v9) = _
  rw [Function.update_self]
  exact final0 (B1 m) c

theorem W2_arg4 (c : Dev nD) : W2 m c main_arg4 = asrc m c := (W2_of m c _ (by decide)).trans (W1_of m c _ (by decide))
theorem W2_arg5 (c : Dev nD) : W2 m c main_arg5 = adst m c := (W2_of m c _ (by decide)).trans (W1_of m c _ (by decide))

/-- The aggregate, as the second host stretch computes it from region 0's result. -/
theorem W3_v13 (c : Dev nD) : W3 m c main_v13 = aggK (ax m c) (ae m c) (asrc m c) (adst m c) := by
  dsimp only [W3, Gen.hostOps1]
  after_results
  rw [W2_arg5, W2_v9, B1_v7, B1_v8]
  show Host.scatterAdd _ _ _ (shapeCast S1600000x64 _ shapeCasts_S800000x128_S1600000x64) = _
  rw [reshape_addf]
  rfl

theorem W4_arg (c : Dev nD) (r : Ref sig .tc) (h0 : r ∉ Gen.hostOps0_W) (h1 : r ∉ Gen.hostOps1_W) (h9 : r ≠ main_v9) (h30 : r ≠ main_v30) :
    W4 m c r = m ((c : Thread nD τ).loc r) :=
  (W4_of m c r h30).trans <| (W3_of m c r h1).trans <| (W2_of m c r h9).trans (W1_of m c r h0)

/-! ## Region 1: the updated edge rows (the second result) -/

/-- The aggregate's rows at the edges' sources, relaid. -/
theorem W3_v28 (c : Dev nD) : W3 m c main_v28
    = shapeCast S800000x128 (Host.gather gather_S100000x64_S1600000x1_S1600000x64_1_0_n_n_0_1_164 (aggK (ax m c) (ae m c) (asrc m c) (adst m c)) (nidx (asrc m c))) shapeCasts_S1600000x64_S800000x128 := by
  dsimp only [W3, Gen.hostOps1]
  after_results
  rw [W2_arg5, W2_arg4, W2_v9, B1_v7, B1_v8]
  show shapeCast S800000x128 (Host.gather _ (Host.scatterAdd _ _ _ (shapeCast S1600000x64 _ shapeCasts_S800000x128_S1600000x64)) _) _ = _
  rw [reshape_addf]
  rfl

/-- The aggregate's rows at the edges' destinations, relaid. -/
theorem W3_v29 (c : Dev nD) : W3 m c main_v29
    = shapeCast S800000x128 (Host.gather gather_S100000x64_S1600000x1_S1600000x64_1_0_n_n_0_1_164 (aggK (ax m c) (ae m c) (asrc m c) (adst m c)) (nidx (adst m c))) shapeCasts_S1600000x64_S800000x128 := by
  dsimp only [W3, Gen.hostOps1]
  after_results
  rw [W2_arg5, W2_v9, B1_v7, B1_v8]
  show shapeCast S800000x128 (Host.gather _ (Host.scatterAdd _ _ _ (shapeCast S1600000x64 _ shapeCasts_S800000x128_S1600000x64)) _) _ = _
  rw [reshape_addf]
  rfl

/-- Region 1's result array: the two relaid gathers, added. -/
theorem W4_v30 (c : Dev nD) : W4 m c main_v30 = addf (s := S800000x128) (B3 m c main_v28) (B3 m c main_v29) := by
  show Function.update (W3 m c) (Proc.devRef .tc main_v30) (o4 m c) (Proc.devRef .tc main_v30) = _
  rw [Function.update_self]
  exact final1 (B3 m) c

/-- The second result. -/
theorem out_edge (c : Dev nD) :
    W8 m c main_v31 = edgeK (aggK (ax m c) (ae m c) (asrc m c) (adst m c)) (asrc m c) (adst m c) := by
  refine (upd_ne (W7 m c) main_v42 main_v31 (o8 m c) (by decide)).trans ?_
  dsimp only [W7, W6, W5, Gen.hostOps2, Gen.hostOps2_1, Gen.hostOps2_2]
  after_results
  rw [W4_v30]
  show shapeCast S1600000x64 (addf (W3 m c main_v28) (W3 m c main_v29)) shapeCasts_S800000x128_S1600000x64 = _
  rw [W3_v28, W3_v29, reshape_addf]
  rfl

/-! ## Region 2's operands -/

/-- Region 2 finds the aggregate in its first operand. -/
theorem W7_v13 (c : Dev nD) : W7 m c main_v13 = aggK (ax m c) (ae m c) (asrc m c) (adst m c) := by
  dsimp only [W7, W6, W5, Gen.hostOps2, Gen.hostOps2_1, Gen.hostOps2_2]
  after_results
  exact (W4_of m c main_v13 (by decide)).trans (W3_v13 m c)

/-- The transposed weights. -/
theorem W7_v39 (c : Dev nD) : W7 m c main_v39 = transpose S64x64 [1, 0] (aw m c) transposes_S64x64_S64x64_1_0 := by
  dsimp only [W7, W6, W5, Gen.hostOps2, Gen.hostOps2_1, Gen.hostOps2_2]
  after_results
  rw [W4_arg m c main_arg2 (by decide) (by decide) (by decide) (by decide)]

/-- The bias relaid as a row. -/
theorem W7_v40 (c : Dev nD) : W7 m c main_v40 = shapeCast S1x64 (ab m c) shapeCasts_S64_S1x64 := by
  dsimp only [W7, W6, W5, Gen.hostOps2, Gen.hostOps2_1, Gen.hostOps2_2]
  after_results
  rw [W4_arg m c main_arg3 (by decide) (by decide) (by decide) (by decide)]
  rfl

/-- The normaliser relaid as a column. -/
theorem W7_v41 (c : Dev nD) : W7 m c main_v41 = shapeCast S100000x1 (normK (adst m c)) shapeCasts_S100000_S100000x1 := by
  dsimp only [W7, W6, W5, Gen.hostOps2, Gen.hostOps2_1, Gen.hostOps2_2]
  after_results
  rw [W4_arg m c main_arg5 (by decide) (by decide) (by decide) (by decide)]
  unfold normK
  rfl

/-- The residual operand is x. -/
theorem W7_arg0 (c : Dev nD) : W7 m c main_arg0 = ax m c := by
  dsimp only [W7, W6, W5, Gen.hostOps2, Gen.hostOps2_1, Gen.hostOps2_2]
  after_results
  exact W4_arg m c main_arg0 (by decide) (by decide) (by decide) (by decide)

/-! ## Region 2: the finishing stage (the first result), over the extended reals -/

section OverTheExtendedReals

variable (m : (ℓ : Loc nD τ sig) → Buf (Elt Ideal) ℓ)

theorem B7_v13 (c : Dev nD) : B7 m c main_v13 = aggK (ax m c) (ae m c) (asrc m c) (adst m c) := W7_v13 m c
theorem B7_v39 (c : Dev nD) : B7 m c main_v39 = transpose S64x64 [1, 0] (aw m c) transposes_S64x64_S64x64_1_0 := W7_v39 m c
/-- The bias as a row. -/
theorem B7_v40 (c : Dev nD) : B7 m c main_v40 = Cert.FinishSpec.rowOf (ab m c) :=
  (W7_v40 m c).trans (Cert.KernelIdeal.HandValue.reshape_row (ab m c))
/-- The normaliser as a column. -/
theorem B7_v41 (c : Dev nD) : B7 m c main_v41 = Cert.FinishSpec.colOf (normK (F := Ideal) (adst m c)) :=
  (W7_v41 m c).trans (Cert.KernelIdeal.HandValue.reshape_col (normK (F := Ideal) (adst m c)))
theorem B7_arg0 (c : Dev nD) : B7 m c main_arg0 = ax m c := W7_arg0 m c

/-- The first result. -/
theorem out_rst (c : Dev nD) :
    W8 (F := Ideal) m c main_v42
      = Cert.FinishSpec.finishG (aggK (ax m c) (ae m c) (asrc m c) (adst m c))
          (transpose S64x64 [1, 0] (aw m c) transposes_S64x64_S64x64_1_0)
          (Cert.FinishSpec.rowOf (ab m c)) (Cert.FinishSpec.colOf (normK (F := Ideal) (adst m c))) (ax m c) := by
  show Function.update (W7 m c) (Proc.devRef .tc main_v42) (o8 m c) (Proc.devRef .tc main_v42) = _
  rw [Function.update_self]
  refine (Cert.KernelIdeal.HandValue.final2 (B7 m) c).trans ?_
  rw [B7_v13, B7_v39, B7_v40, B7_v41, B7_arg0]

end OverTheExtendedReals

end Cert.KernelIdeal.Hand

end
-- ==== Proof.RefFinish.lean ====
/-
  The reference's last stage at the extended reals: (h · wt + b) * n + x with the bias vector repeated down the rows and the
  normaliser vector across the columns, read at an index, is the finishing function FinishSpec.finishG of h, wt, the bias as a
  row, the normaliser as a column, and x. The contraction of the host's matrix product is the plain sum over the 64 columns of h.
-/
import proofs.«158282_j16862041604212_1_alg».proof.ReferenceIdeal
import proofs.«158282_j16862041604212_1_alg».proof.Proof.Gen.ReferenceIdeal
import proofs.«158282_j16862041604212_1_alg».proof.Proof.FinishSpec
import proofs.«158282_j16862041604212_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx

/-- The reference's result as the finishing function. -/
theorem ref_rst_eq (h : FVec Ideal S100000x64 .f32) (wt : FVec Ideal S64x64 .f32) (b : FVec Ideal S64 .f32)
    (nrm : FVec Ideal S100000 .f32) (x : FVec Ideal S100000x64 .f32) :
    addf (mulf (addf (Host.dotGeneral (F := Ideal) dot_S100000x64_S64x64_S100000x64_1_0_0_1_n_n none h wt)
          (broadcastInDim S100000x64 ![0, 1] bcast_S1x64_S100000x64_0_1 (broadcastInDim S1x64 ![1] bcast_S64_S1x64_1 b)))
        (broadcastInDim S100000x64 ![0, 1] bcast_S100000x1_S100000x64_0_1 (broadcastInDim S100000x1 ![0] bcast_S100000_S100000x1_0 nrm))) x
      = Cert.FinishSpec.finishG h wt (Cert.FinishSpec.rowOf b) (Cert.FinishSpec.colOf nrm) x := by
  funext i
  obtain ⟨p, q, rfl⟩ : ∃ (p : Fin 100000) (q : Fin 64), i = ix2 p q := ⟨i 0, i 1, eq_ix2 i⟩
  -- the matrix product at (p, q): the contraction over its own index type is the plain sum over the 64 columns of h
  have hdot : Host.dotGeneral (F := Ideal) dot_S100000x64_S64x64_S100000x64_1_0_0_1_n_n none h wt (ix2 p q)
      = ∑ k : Fin 64, h (ix2 p k) * wt (ix2 k q) := by
    simp only [Host.dotGeneral]
    rw [Ideal.dotGeneral_apply]
    exact PlainDot.sum_eq dot_S100000x64_S64x64_S100000x64_1_0_0_1_n_n rfl rfl rfl rfl rfl rfl h wt p q
  -- the bias vector as a row: at (0, q) it is b q
  have hb1 : ∀ u : Fin 1, broadcastInDim S1x64 ![1] bcast_S64_S1x64_1 b (ix2 u q) = b (ix1 q) := fun u =>
    broadcastInDim_apply _ bcast_S64_S1x64_1 b (ix2 u q) (ix1 q) (fun a => match a with
      | ⟨0, _⟩ => by show q.val = if (64 : Nat) = 1 then 0 else q.val; rw [if_neg (by decide)])
  -- the row repeated down the rows: at (p, q) it is the row at (0, q)
  have hb2 : broadcastInDim S100000x64 ![0, 1] bcast_S1x64_S100000x64_0_1 (broadcastInDim S1x64 ![1] bcast_S64_S1x64_1 b) (ix2 p q)
      = b (ix1 q) := by
    rw [broadcastInDim_apply _ bcast_S1x64_S100000x64_0_1 _ (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])]
    exact hb1 0
  -- the normaliser vector as a column: at (p, 0) it is nrm p
  have hn1 : ∀ u : Fin 1, broadcastInDim S100000x1 ![0] bcast_S100000_S100000x1_0 nrm (ix2 p u) = nrm (ix1 p) := fun u =>
    broadcastInDim_apply _ bcast_S100000_S100000x1_0 nrm (ix2 p u) (ix1 p) (fun a => match a with
      | ⟨0, _⟩ => by show p.val = if (100000 : Nat) = 1 then 0 else p.val; rw [if_neg (by decide)])
  -- the column repeated across the columns: at (p, q) it is the column at (p, 0)
  have hn2 : broadcastInDim S100000x64 ![0, 1] bcast_S100000x1_S100000x64_0_1 (broadcastInDim S100000x1 ![0] bcast_S100000_S100000x1_0 nrm) (ix2 p q)
      = nrm (ix1 p) := by
    rw [broadcastInDim_apply _ bcast_S100000x1_S100000x64_0_1 _ (ix2 p q) (ix2 p (0 : Fin 1)) (fun a => match a with
      | ⟨0, _⟩ => by show p.val = if (100000 : Nat) = 1 then 0 else p.val; rw [if_neg (by decide)]
      | ⟨1, _⟩ => by show 0 = if (1 : Nat) = 1 then 0 else q.val; rw [if_pos rfl])]
    exact hn1 0
  -- sum, product and sum are taken index by index
  rw [addf_apply, mulf_apply, addf_apply, hdot, hb2, hn2, Cert.FinishSpec.finishG_apply]
  rfl

end Cert.ReferenceIdeal.Hand

end
-- ==== Proof.IdealClaims.lean ====
/-
  The claims about the idealized programs. The idealized kernel program's frame and its two results come from its run; the
  idealized reference's from its run read back as one term per result. Memories that agree on the six arguments give the two
  programs the same aggregate h (the same gather, sum and scatter-sum of the same arrays), hence the same updated edge rows, and
  the reference's last stage, read at an index, is the finishing function the kernel's third region computes.
-/
import proofs.«158282_j16862041604212_1_alg».proof.Defs
import proofs.«158282_j16862041604212_1_alg».proof.Proof.Launch
import proofs.«158282_j16862041604212_1_alg».proof.Proof.KernelValue
import proofs.«158282_j16862041604212_1_alg».proof.Proof.RefFinish
import proofs.«158282_j16862041604212_1_alg».proof.Proof.Gen.ReferenceIdeal.Run
import proofs.«158282_j16862041604212_1_alg».proof.Proof.Gen.Pre_finite_inputs

set_option maxRecDepth 16384

noncomputable section

namespace Cert.Proof.IdealClaims

open Idealize.ShloMosaic Idealize.ShloMosaic.TcCoe Idealize.SL.Sem

theorem frame_ki : Cert.frame_KernelIdeal := fun m ρ _ => Cert.KernelIdeal.Hand.frame_main m ρ

theorem frame_ri : Cert.frame_ReferenceIdeal := fun m ρ _ =>
  (θ_run Cert.ReferenceIdeal.defs _ _).mono (fun _ h c => (h c).2.2) (Cert.ReferenceIdeal.Value.run (F := Ideal) m ρ)

open Cert.KernelIdeal.Hand in
/-- From memories that agree on the six arguments both programs end with the finishing function of the aggregate as first
    result and the gathered aggregate rows as second: the kernel program by its regions' values, the reference by its
    composed term, whose last stage is the finishing function and whose gathers, sums and scatter-sums are spelt with the
    same dimension records as the kernel program's host stretches. -/
theorem algebraic : Cert.algebraic_KernelIdeal_ReferenceIdeal := by
  intro m ρ m' ρ' _ hagree
  refine ⟨fun c => Cert.FinishSpec.finishG (aggK (ax m c) (ae m c) (asrc m c) (adst m c))
      (transpose Cert.KernelIdeal.S64x64 [1, 0] (aw m c) Cert.KernelIdeal.Gen.transposes_S64x64_S64x64_1_0)
      (Cert.FinishSpec.rowOf (ab m c)) (Cert.FinishSpec.colOf (normK (F := Ideal) (adst m c))) (ax m c),
    fun c => edgeK (aggK (ax m c) (ae m c) (asrc m c) (adst m c)) (asrc m c) (adst m c), ?_, ?_⟩
  · -- the kernel program: every unscoped buffer ends at the last valuation; the two results and the arguments are read off it
    exact (θ_run Cert.KernelIdeal.defs _ _).mono (fun r h c =>
      ⟨(h c _ (mem_uc Cert.KernelIdeal.main_v42 (by decide))).trans (out_rst m c),
       (h c _ (mem_uc Cert.KernelIdeal.main_v31 (by decide))).trans (out_edge m c),
       (h c _ (mem_uc Cert.KernelIdeal.main_arg0 (by decide))).trans (W8_main_arg0 m c),
       (h c _ (mem_uc Cert.KernelIdeal.main_arg1 (by decide))).trans (W8_main_arg1 m c),
       (h c _ (mem_uc Cert.KernelIdeal.main_arg2 (by decide))).trans (W8_main_arg2 m c),
       (h c _ (mem_uc Cert.KernelIdeal.main_arg3 (by decide))).trans (W8_main_arg3 m c),
       (h c _ (mem_uc Cert.KernelIdeal.main_arg4 (by decide))).trans (W8_main_arg4 m c),
       (h c _ (mem_uc Cert.KernelIdeal.main_arg5 (by decide))).trans (W8_main_arg5 m c)⟩) (run_main m ρ)
  · -- the reference: its two composed terms, read over the kernel program's arguments
    refine (θ_run Cert.ReferenceIdeal.defs _ _).mono (fun _ h c => ⟨(h c).1.trans ?_, (h c).2.1.trans ?_, (h c).2.2⟩)
      (Cert.ReferenceIdeal.Value.run (F := Ideal) m' ρ')
    · rw [(hagree c).1, (hagree c).2.1, (hagree c).2.2.1, (hagree c).2.2.2.1, (hagree c).2.2.2.2.1, (hagree c).2.2.2.2.2]
      exact (Cert.ReferenceIdeal.Hand.ref_rst_eq _ _ _ _ _).trans rfl
    · rw [(hagree c).1, (hagree c).2.1, (hagree c).2.2.2.2.1, (hagree c).2.2.2.2.2]
      rfl

end Cert.Proof.IdealClaims

end
-- ==== Proof.lean ====
/-
  The proof of the certificate's five claims about a graph-convolution layer: messages x[src] + e summed into the destination
  nodes (the aggregate h), the edge update h[src] + h[dst], and the node update (h · Wᵀ + b) · deg⁻¹ᐟ² + x.

  The kernel program gathers, scatters and normalises on the host exactly as the reference does, and runs three pallas_calls:
  two lane-dense sums over arrays relaid as f32[800000, 128] in blocks of 4096 rows (the last of the 196 blocks overhangs the
  arrays by 2816 rows: its transfers are cut at the arrays' end, and nothing is claimed of the staging rows past it), and the
  finishing stage over 50 blocks of 2000 rows that tile the nodes. Its frame, at words and at the extended reals, is its run as
  a chain of host stretches and regions (Proof/AddRegion0, AddRegion1, FinishRegion: each region's body and what its array
  ends holding; Proof/Regs: the regions as segments; Proof/Launch: the run). At the extended reals a relaid sum laid back is the
  sum (Proof/ReshapeAdd), so both programs compute one aggregate h and one edge update; the third region's blocks are the
  rows of (Σ_k h(p,k)·Wᵀ(k,q) + b(q)) · n(p) + x(p,q) (Proof/FinishSpec, FinishValue), which is the reference's last stage
  read at an index (Proof/RefFinish). No law beyond the reading of each operation at an index joins the two sides, so the
  precondition is never opened. The ideal pass rewrote nothing: the idealized program is the program's own text.
-/
import proofs.«158282_j16862041604212_1_alg».proof.Defs
import proofs.«158282_j16862041604212_1_alg».proof.Proof.Gen.Kernel
import proofs.«158282_j16862041604212_1_alg».proof.Proof.Gen.KernelIdeal
import proofs.«158282_j16862041604212_1_alg».proof.Proof.Gen.ReferenceIdeal
import proofs.«158282_j16862041604212_1_alg».proof.Proof.Gen.Pre_finite_inputs
import proofs.«158282_j16862041604212_1_alg».proof.Proof.BitsClaims
import proofs.«158282_j16862041604212_1_alg».proof.Proof.IdealClaims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    BitsClaims.frame_k, IdealClaims.frame_ki, IdealClaims.frame_ri, trivial, IdealClaims.algebraic⟩

end Cert.Proof

end
